-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x512x3 : Shape := ⟨4, ![64, 512, 512, 3]⟩
abbrev S64 : Shape := ⟨1, ![64]⟩
abbrev S_ : Shape := ⟨0, ![]⟩

class Facts : Prop where
  bcast_S_S64x512x512x3 : S_.BroadcastsInDim S64x512x512x3 (![] : Fin 0 → Fin S64x512x512x3.rank)
  reducesTo_S64x512x512x3_S_d0_1_2_3 : S64x512x512x3.ReducesTo [0, 1, 2, 3] S_
  h_S_ : 0 < S_.numel
  bcast_S_S64 : S_.BroadcastsInDim S64 (![] : Fin 0 → Fin S64.rank)
  reducesTo_S64_S_d0 : S64.ReducesTo [0] S_

variable [Facts]

def fn {F : FTy → Type} [FloatOps F] (main_arg0 : FVec F S64x512x512x3 .f32) (main_arg1 : IVec S64 32) (main_arg2 : IVec S64 32) (main_arg3 : IVec S64 32) (main_arg4 : IVec S64 32) (main_arg5 : IVec S64 32) : IVec S_ 1 :=
  let main_v0 : FVec F S64x512x512x3 .f32 := Host.absf main_arg0
  let main_cst : FVec F S_ .f32 := constant S_ .f32 0x7F800000#32
  let main_v1 : FVec F S64x512x512x3 .f32 := broadcastInDim S64x512x512x3 ![] bcast_S_S64x512x512x3 main_cst
  let main_v2 : IVec S64x512x512x3 1 := cmpf .olt main_v0 main_v1
  let main_c : IVec S_ 1 := constantI S_ 1 1#1
  let main_v3 : IVec S_ 1 := (fun x v => Host.reduce IntOp.andi x v reducesTo_S64x512x512x3_S_d0_1_2_3 h_S_) main_v2 main_c
  let main_c_0 : IVec S_ 32 := constantI S_ 32 0#32
  let main_v4 : IVec S64 32 := broadcastInDim S64 ![] bcast_S_S64 main_c_0
  let main_v5 : IVec S64 1 := cmpi .sge main_arg5 main_v4
  let main_c_1 : IVec S_ 32 := constantI S_ 32 64#32
  let main_v6 : IVec S64 32 := broadcastInDim S64 ![] bcast_S_S64 main_c_1
  let main_v7 : IVec S64 1 := cmpi .slt main_arg5 main_v6
  let main_v8 : IVec S64 1 := andi main_v5 main_v7
  let main_c_2 : IVec S_ 1 := constantI S_ 1 1#1
  let main_v9 : IVec S_ 1 := (fun x v => Host.reduce IntOp.andi x v reducesTo_S64_S_d0 h_S_) main_v8 main_c_2
  let main_v10 : IVec S_ 1 := andi main_v3 main_v9
  main_v10
-- ==== Kernel.lean ====
abbrev S64x512x512x3 : Shape := ⟨4, ![64, 512, 512, 3]⟩
abbrev S64 : Shape := ⟨1, ![64]⟩
abbrev S64x512x1536 : Shape := ⟨3, ![64, 512, 1536]⟩
abbrev S_ : Shape := ⟨0, ![]⟩
abbrev S1x128x1536 : Shape := ⟨3, ![1, 128, 1536]⟩
abbrev S1 : Shape := ⟨1, ![1]⟩

abbrev nBuf : Space → Nat
  | .hbm => 12
  | .vmem => 6
  | .smem => 5
  | _ => 0

abbrev bufTy : (tb : Table) → Fin (tcTables nBuf tb) → BufTy
  | .hbm, ⟨0, _⟩ => ⟨S64x512x512x3, .f32⟩
  | .hbm, ⟨1, _⟩ => ⟨S64, .i32⟩
  | .hbm, ⟨2, _⟩ => ⟨S64x512x1536, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S64, .i32⟩
  | .hbm, ⟨7, _⟩ => ⟨S64, .i32⟩
  | .hbm, ⟨8, _⟩ => ⟨S_, .i32⟩
  | .hbm, ⟨9, _⟩ => ⟨S64, .i32⟩
  | .hbm, ⟨10, _⟩ => ⟨S64x512x1536, .f32⟩
  | .hbm, ⟨11, _⟩ => ⟨S64x512x512x3, .f32⟩
  | .local _ .vmem, ⟨0, _⟩ => ⟨S1x128x1536, .f32⟩
  | .local _ .vmem, ⟨1, _⟩ => ⟨S1x128x1536, .f32⟩
  | .local _ .vmem, ⟨2, _⟩ => ⟨S1x128x1536, .f32⟩
  | .local _ .vmem, ⟨3, _⟩ => ⟨S1x128x1536, .f32⟩
  | .local _ .vmem, ⟨4, _⟩ => ⟨S1x128x1536, .f32⟩
  | .local _ .vmem, ⟨5, _⟩ => ⟨S1x128x1536, .f32⟩
  | .local _ .smem, ⟨0, _⟩ => ⟨S64, .i32⟩
  | .local _ .smem, ⟨1, _⟩ => ⟨S64, .i32⟩
  | .local _ .smem, ⟨2, _⟩ => ⟨S64, .i32⟩
  | .local _ .smem, ⟨3, _⟩ => ⟨S64, .i32⟩
  | .local _ .smem, ⟨4, _⟩ => ⟨S64, .i32⟩
  | _, _ => ⟨S64x512x512x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg5 : Ref sig .tc := ⟨.hbm, 1, rfl⟩
abbrev main_v0 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v2 : Ref sig .tc := ⟨.hbm, 10, rfl⟩
abbrev main_v3 : Ref sig .tc := ⟨.hbm, 11, rfl⟩
abbrev main_arg1 : Ref sig .tc := ⟨.smem, 0, rfl⟩
abbrev main_arg2 : Ref sig .tc := ⟨.smem, 1, rfl⟩
abbrev main_arg3 : Ref sig .tc := ⟨.smem, 2, rfl⟩
abbrev main_arg4 : Ref sig .tc := ⟨.smem, 3, rfl⟩
abbrev main_v1 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![64, 4], ![false, false]⟩

abbrev pre0 : Pipeline.Prefetch sig := ⟨5, ![main_arg1.idx, main_arg2.idx, main_arg3.idx, main_arg4.idx, main_v1.idx], fun | 0 => main_arg1.names | 1 => main_arg2.names | 2 => main_arg3.names | 3 => main_arg4.names | 4 => main_v1.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 4 (Rect.unit (s := S64) ![v0.toNat] S1.size (k0_off1_inb i)) numel1_S1
  let c0_i32 : BitVec 32 := 0#32
  let c0_i32_0 : BitVec 32 := 0#32
  ![v1.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S64x512x512x3_S64x512x1536 : S64x512x512x3.ShapeCasts S64x512x1536
  bcast_S_S64 : S_.BroadcastsInDim S64 (![] : Fin 0 → Fin S64.rank)
  numel1_S1 : S1.numel = 1
  iota_S1x128x1536_d1_w32 : S1x128x1536.Iotas .tc 32 [1]
  iota_S1x128x1536_d2_w32 : S1x128x1536.Iotas .tc 32 [2]
  natLt_1_32 : 1 < 32
  inb_S1x128x1536_S1x128x1536_0_0_0 : ∀ a, (![0, 0, 0] : Fin 3 → Nat) a + S1x128x1536.size a ≤ S1x128x1536.size a
  h_S1x128x1536 : 0 < S1x128x1536.numel
  shapeCasts_S1x128x1536_S1x128x1536 : S1x128x1536.ShapeCasts S1x128x1536
  shapeCasts_S64x512x1536_S64x512x512x3 : S64x512x1536.ShapeCasts S64x512x512x3
  hrank0 : 0 < grid0.rank
  k0_off1_inb : ∀ i : grid0.Coords, ∀ a, (k0_off1 i) a + S1.size a ≤ S64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x1536.size a ≤ S64x512x1536.size a
  hwx0_0 : ∀ i : grid0.Coords, EltTy.bits .f32 = 32 ∨ (Rect.block (s := S64x512x1536) S1x128x1536.size (cc0_transform_0 i) (hinb0_0 i)).WholeWords (EltTy.packing .f32)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x1536.size a ≤ S64x512x1536.size a
  hwx0_2 : ∀ i : grid0.Coords, EltTy.bits .f32 = 32 ∨ (Rect.block (s := S64x512x1536) S1x128x1536.size (cc0_transform_2 i) (hinb0_2 i)).WholeWords (EltTy.packing .f32)

variable [Facts₀]

abbrev spec0_0 : Pipeline.WinSpec sig grid0.rank :=
  Pipeline.WinSpec.ofSpec (Memref.whole main_v0) S1x128x1536.size reads0_0 false false 2 stage0_0 sem0_0 nbuf0_0 hstage0_0

abbrev spec0_1 : Pipeline.WinSpec sig grid0.rank :=
  Pipeline.WinSpec.ofSpec (Memref.whole main_v0) S1x128x1536.size reads0_1 false false 2 stage0_1 sem0_1 nbuf0_1 hstage0_1

abbrev spec0_2 : Pipeline.WinSpec sig grid0.rank :=
  Pipeline.WinSpec.ofSpec (Memref.whole main_v2) S1x128x1536.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 | 1 => cc0_transform_1 k0_off1_inb numel1_S1 pf | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 | ⟨_ + 3, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x128x1536.size a ≤ S64x512x1536.size a), EltTy.bits .f32 = 32 ∨ (Rect.block (s := S64x512x1536) S1x128x1536.size (cc0_transform_1 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok i).elim fun h _ => h a | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok i).elim fun _ h => h | 2 => hwx0_2 | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S64x512x512x3 : Shape := ⟨4, ![64, 512, 512, 3]⟩
abbrev S64 : Shape := ⟨1, ![64]⟩
abbrev S512 : Shape := ⟨1, ![512]⟩
abbrev S1x512x1 : Shape := ⟨3, ![1, 512, 1]⟩
abbrev S1x1x512 : Shape := ⟨3, ![1, 1, 512]⟩
abbrev S64x1x1 : Shape := ⟨3, ![64, 1, 1]⟩
abbrev S64x512x1 : Shape := ⟨3, ![64, 512, 1]⟩
abbrev S64x1x512 : Shape := ⟨3, ![64, 1, 512]⟩
abbrev S64x512x512 : Shape := ⟨3, ![64, 512, 512]⟩
abbrev S64x512x512x1 : Shape := ⟨4, ![64, 512, 512, 1]⟩
abbrev S_ : Shape := ⟨0, ![]⟩
abbrev S64x1 : Shape := ⟨2, ![64, 1]⟩

abbrev nBuf : Space → Nat
  | .hbm => 55
  | .vmem => 0
  | .smem => 0
  | _ => 0

abbrev bufTy : (tb : Table) → Fin (tcTables nBuf tb) → BufTy
  | .hbm, ⟨0, _⟩ => ⟨S64x512x512x3, .f32⟩
  | .hbm, ⟨1, _⟩ => ⟨S64, .i32⟩
  | .hbm, ⟨2, _⟩ => ⟨S64, .i32⟩
  | .hbm, ⟨3, _⟩ => ⟨S64, .i32⟩
  | .hbm, ⟨4, _⟩ => ⟨S64, .i32⟩
  | .hbm, ⟨5, _⟩ => ⟨S64, .i32⟩
  | .hbm, ⟨6, _⟩ => ⟨S512, .i32⟩
  | .hbm, ⟨7, _⟩ => ⟨S1x512x1, .i32⟩
  | .hbm, ⟨8, _⟩ => ⟨S512, .i32⟩
  | .hbm, ⟨9, _⟩ => ⟨S1x1x512, .i32⟩
  | .hbm, ⟨10, _⟩ => ⟨S64x1x1, .i32⟩
  | .hbm, ⟨11, _⟩ => ⟨S64x512x1, .i32⟩
  | .hbm, ⟨12, _⟩ => ⟨S64x512x1, .i32⟩
  | .hbm, ⟨13, _⟩ => ⟨S64x512x1, .i1⟩
  | .hbm, ⟨14, _⟩ => ⟨S64x1x1, .i32⟩
  | .hbm, ⟨15, _⟩ => ⟨S64x512x1, .i32⟩
  | .hbm, ⟨16, _⟩ => ⟨S64x512x1, .i32⟩
  | .hbm, ⟨17, _⟩ => ⟨S64x512x1, .i1⟩
  | .hbm, ⟨18, _⟩ => ⟨S64x512x1, .i1⟩
  | .hbm, ⟨19, _⟩ => ⟨S64x1x1, .i32⟩
  | .hbm, ⟨20, _⟩ => ⟨S64x1x512, .i32⟩
  | .hbm, ⟨21, _⟩ => ⟨S64x1x512, .i32⟩
  | .hbm, ⟨22, _⟩ => ⟨S64x1x512, .i1⟩
  | .hbm, ⟨23, _⟩ => ⟨S64x512x512, .i1⟩
  | .hbm, ⟨24, _⟩ => ⟨S64x512x512, .i1⟩
  | .hbm, ⟨25, _⟩ => ⟨S64x512x512, .i1⟩
  | .hbm, ⟨26, _⟩ => ⟨S64x1x1, .i32⟩
  | .hbm, ⟨27, _⟩ => ⟨S64x1x512, .i32⟩
  | .hbm, ⟨28, _⟩ => ⟨S64x1x512, .i32⟩
  | .hbm, ⟨29, _⟩ => ⟨S64x1x512, .i1⟩
  | .hbm, ⟨30, _⟩ => ⟨S64x512x512, .i1⟩
  | .hbm, ⟨31, _⟩ => ⟨S64x512x512, .i1⟩
  | .hbm, ⟨32, _⟩ => ⟨S64x512x512x1, .i1⟩
  | .hbm, ⟨33, _⟩ => ⟨S_, .f32⟩
  | .hbm, ⟨34, _⟩ => ⟨S_, .f32⟩
  | .hbm, ⟨35, _⟩ => ⟨S64x512x512x1, .f32⟩
  | .hbm, ⟨36, _⟩ => ⟨S64x512x512x1, .f32⟩
  | .hbm, ⟨37, _⟩ => ⟨S64x512x512x1, .f32⟩
  | .hbm, ⟨38, _⟩ => ⟨S_, .i32⟩
  | .hbm, ⟨39, _⟩ => ⟨S64, .i32⟩
  | .hbm, ⟨40, _⟩ => ⟨S64, .i1⟩
  | .hbm, ⟨41, _⟩ => ⟨S_, .i32⟩
  | .hbm, ⟨42, _⟩ => ⟨S64, .i32⟩
  | .hbm, ⟨43, _⟩ => ⟨S64, .i32⟩
  | .hbm, ⟨44, _⟩ => ⟨S64, .i32⟩
  | .hbm, ⟨45, _⟩ => ⟨S64x1, .i32⟩
  | .hbm, ⟨46, _⟩ => ⟨S64x512x512x3, .f32⟩
  | .hbm, ⟨47, _⟩ => ⟨S64x512x512x3, .f32⟩
  | .hbm, ⟨48, _⟩ => ⟨S64x512x512x3, .f32⟩
  | .hbm, ⟨49, _⟩ => ⟨S_, .f32⟩
  | .hbm, ⟨50, _⟩ => ⟨S64x512x512x1, .f32⟩
  | .hbm, ⟨51, _⟩ => ⟨S64x512x512x1, .f32⟩
  | .hbm, ⟨52, _⟩ => ⟨S64x512x512x3, .f32⟩
  | .hbm, ⟨53, _⟩ => ⟨S64x512x512x3, .f32⟩
  | .hbm, ⟨54, _⟩ => ⟨S64x512x512x3, .f32⟩
  | _, _ => ⟨S64x512x512x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst : Ref sig .tc := ⟨.hbm, 33, rfl⟩
abbrev main_cst_0 : Ref sig .tc := ⟨.hbm, 34, rfl⟩
abbrev main_call0_v0 : Ref sig .tc := ⟨.hbm, 35, rfl⟩
abbrev main_call0_v1 : Ref sig .tc := ⟨.hbm, 36, rfl⟩
abbrev main_v27 : Ref sig .tc := ⟨.hbm, 37, rfl⟩
abbrev main_c : Ref sig .tc := ⟨.hbm, 38, rfl⟩
abbrev main_v28 : Ref sig .tc := ⟨.hbm, 39, rfl⟩
abbrev main_v29 : Ref sig .tc := ⟨.hbm, 40, rfl⟩
abbrev main_c_1 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_2 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]

class Facts₀ : Prop where
  bcast_S512_S1x512x1_1 : S512.BroadcastsInDim S1x512x1 (![1] : Fin 1 → Fin S1x512x1.rank)
  bcast_S512_S1x1x512_2 : S512.BroadcastsInDim S1x1x512 (![2] : Fin 1 → Fin S1x1x512.rank)
  bcast_S64_S64x1x1_0 : S64.BroadcastsInDim S64x1x1 (![0] : Fin 1 → Fin S64x1x1.rank)
  bcast_S1x512x1_S64x512x1_0_1_2 : S1x512x1.BroadcastsInDim S64x512x1 (![0, 1, 2] : Fin 3 → Fin S64x512x1.rank)
  bcast_S64x1x1_S64x512x1_0_1_2 : S64x1x1.BroadcastsInDim S64x512x1 (![0, 1, 2] : Fin 3 → Fin S64x512x1.rank)
  bcast_S1x1x512_S64x1x512_0_1_2 : S1x1x512.BroadcastsInDim S64x1x512 (![0, 1, 2] : Fin 3 → Fin S64x1x512.rank)
  bcast_S64x1x1_S64x1x512_0_1_2 : S64x1x1.BroadcastsInDim S64x1x512 (![0, 1, 2] : Fin 3 → Fin S64x1x512.rank)
  bcast_S64x512x1_S64x512x512_0_1_2 : S64x512x1.BroadcastsInDim S64x512x512 (![0, 1, 2] : Fin 3 → Fin S64x512x512.rank)
  bcast_S64x1x512_S64x512x512_0_1_2 : S64x1x512.BroadcastsInDim S64x512x512 (![0, 1, 2] : Fin 3 → Fin S64x512x512.rank)
  bcast_S64x512x512_S64x512x512x1_0_1_2 : S64x512x512.BroadcastsInDim S64x512x512x1 (![0, 1, 2] : Fin 3 → Fin S64x512x512x1.rank)
  bcast_S_S64x512x512x1 : S_.BroadcastsInDim S64x512x512x1 (![] : Fin 0 → Fin S64x512x512x1.rank)
  bcast_S_S64 : S_.BroadcastsInDim S64 (![] : Fin 0 → Fin S64.rank)
  bcast_S64_S64x1_0 : S64.BroadcastsInDim S64x1 (![0] : Fin 1 → Fin S64x1.rank)
  bcast_S64x512x512x1_S64x512x512x3_0_1_2_3 : S64x512x512x1.BroadcastsInDim S64x512x512x3 (![0, 1, 2, 3] : Fin 4 → Fin S64x512x512x3.rank)
  gather_S64x512x512x3_S64x1_S64x512x512x3_123_0_n_n_0_1_15125123_wf : GatherDims.WF S64x512x512x3 S64x1 S64x512x512x3 [1, 2, 3] [0] [] [0] [] 1 ![1, 512, 512, 3]

variable [Facts₀]

def gather_S64x512x512x3_S64x1_S64x512x512x3_123_0_n_n_0_1_15125123 : GatherDims S64x512x512x3 S64x1 S64x512x512x3 where
  offsetDims := [1, 2, 3]
  collapsedSliceDims := [0]
  operandBatchingDims := []
  startIndicesBatchingDims := []
  startIndexMap := [0]
  indexVectorDim := 1
  sliceSizes := ![1, 512, 512, 3]
  wf := gather_S64x512x512x3_S64x1_S64x512x512x3_123_0_n_n_0_1_15125123_wf

class Facts : Prop extends Facts₀ where

variable [Facts]
-- ==== Proof.HostK.lean ====
/-
  The program around its one kernel region. Before the region the host reshapes the image batch x from
  [64, 512, 512, 3] to [64, 512, 1536] (a pixel's three channels laid side by side in its row) and clamps every word of
  perm into 0 … 63 (first max with 0, then min with 63, both signed); after it the host reshapes the region's result
  back. This module names what each buffer holds when the region is entered and reduces the program to
  "those host lines, the region, the last host line".
-/
import proofs.«427257_j12232066859295_2_alg».proof.Proof.Gen.Kernel.Launch
import proofs.«427257_j12232066859295_2_alg».proof.Proof.Gen.Kernel.Skeleton
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host lines before the region, and the one after it. -/
abbrev linesBefore : List (List (HloOp τ sig (Elt F))) := [hostOps0, hostOps0_1]
abbrev linesAfter : List (List (HloOp τ sig (Elt F))) := [hostOps1]

/-- What core c's buffers hold when the region is entered: the launch contents after the lines before it. -/
abbrev V (c : Dev nD) (b : Ref sig .tc) : Buf (Elt F) ((c : Thread nD τ).loc b) :=
  StableHlo.after (linesBefore (F := F)).flatten (fun b => m (c, b)) b

/-- The program is: the lines before, the region, the line after. -/
theorem hmain (𝒱₀ : Variants) :
    Pipeline.HMainPK (Ix := Unit) (Name := ℕ) (U := UR sig nD τ) (Lvl := ℕ) pcfgs 0 defs₀ 𝒱₀ m (main (F := F)) (V m)
      (fun _ => Pipeline.chain ((linesAfter (F := F)).map StableHlo.seq)) :=
  Pipeline.hmainP_around pcfgs 0 defs₀ 𝒱₀ m main linesBefore linesAfter
    (And.intro hostOps0_sub hostOps0_1_sub)
    (And.intro ⟨rfl, rfl, rfl⟩ ⟨rfl, rfl, rfl, rfl, rfl, rfl⟩)
    (fun c => (main_chain c).trans rfl)

end Cert.Kernel.Hand

end
-- ==== Proof.Spec.lean ====
/-
  CutMix over a batch of 64 images of 512 × 512 pixels and 3 channels, as one function of its arguments.

  Sample b carries a box: rows y1[b] ≤ h < y2[b], columns x1[b] ≤ w < x2[b], the four bounds signed 32-bit words
  compared as signed integers. Inside the box the result pixel is the pixel of ANOTHER sample, the one the word
  perm[b] names; outside it the sample's own pixel is kept. The channel plays no part in the test.
  For a word p with 0 ≤ p < 64 the sample it names is p itself (`row`).
-/
import Idealize.ShloMosaic.PureOps
import Idealize.ShloMosaic.Lib.ValueIdx

noncomputable section

namespace Cert.CutMix

open Idealize.ShloMosaic Idealize.ShloMosaic.ValueIdx

/-- The image batch and a per-sample word vector. -/
abbrev SImg : Shape := ⟨4, ![64, 512, 512, 3]⟩
abbrev SVec : Shape := ⟨1, ![64]⟩

/-- Pixel (h, w) lies in the box with bounds (y1, y2, x1, x2): four signed compares of 32-bit words, conjoined in
    the order ((h ≥ y1 ∧ h < y2) ∧ w ≥ x1) ∧ w < x2. -/
def inBox (y1 y2 x1 x2 : BitVec 32) (h w : Nat) : BitVec 1 :=
  IntOp.andi
    (IntOp.andi
      (IntOp.andi (IntOp.cmpi .sge (BitVec.ofNat 32 h) y1) (IntOp.cmpi .slt (BitVec.ofNat 32 h) y2))
      (IntOp.cmpi .sge (BitVec.ofNat 32 w) x1))
    (IntOp.cmpi .slt (BitVec.ofNat 32 w) x2)

/-- The sample a word names: for 0 ≤ p < 64 (as a signed word) this is p. -/
def row (p : BitVec 32) : Fin 64 := ⟨p.toNat % 64, Nat.mod_lt _ (by decide)⟩

/-- A word that is signed-nonnegative and signed-below 64 is one of 0 … 63. -/
def InRange (p : BitVec 32) : Prop := (0#32 : BitVec 32).sle p = true ∧ p.slt (64#32 : BitVec 32) = true

/-- The result at pixel (b, h, w, ch). -/
def mixAt (x : SImg.Idx → EReal) (y1 y2 x1 x2 perm : SVec.Idx → BitVec 32)
    (b : Fin 64) (h : Fin 512) (w : Fin 512) (ch : Fin 3) : EReal :=
  Scalar.select (inBox (y1 (ix1 b)) (y2 (ix1 b)) (x1 (ix1 b)) (x2 (ix1 b)) h.val w.val)
    (x (ix4 (row (perm (ix1 b))) h w ch)) (x (ix4 b h w ch))

/-- CutMix: the whole result array. -/
def mix (x : SImg.Idx → EReal) (y1 y2 x1 x2 perm : SVec.Idx → BitVec 32) : SImg.Idx → EReal :=
  fun i => mixAt x y1 y2 x1 x2 perm (i 0) (i 1) (i 2) (i 3)

theorem mix_apply (x : SImg.Idx → EReal) (y1 y2 x1 x2 perm : SVec.Idx → BitVec 32)
    (b : Fin 64) (h : Fin 512) (w : Fin 512) (ch : Fin 3) :
    mix x y1 y2 x1 x2 perm (ix4 b h w ch) = mixAt x y1 y2 x1 x2 perm b h w ch := rfl

end Cert.CutMix

end
-- ==== Proof.TablesK.lean ====
/-
  The five prefetched tables as the region finds them, and the side condition the pipeline asks of them.

  Tables 0 … 3 are the box bounds y1, y2, x1, x2 as launched; table 4 is perm clamped into 0 … 63. The second
  input window's block index along the sample axis is table 4's word at the grid point's sample, so every block it
  names lies inside the 64 samples whatever perm holds: the clamp's result is at most 63. When the word was already in
  0 … 63 the clamp leaves it alone.
-/
import proofs.«427257_j12232066859295_2_alg».proof.Proof.HostK
import proofs.«427257_j12232066859295_2_alg».proof.Proof.Spec

set_option maxRecDepth 16384

noncomputable section

namespace Cert.Kernel.Hand

open Cert.Kernel Cert.Kernel.Gen
open Idealize.ShloMosaic Idealize.ShloMosaic.TcCoe Idealize.ShloMosaic.Tactic Idealize.ShloMosaic.StableHlo
open Idealize.ShloMosaic.ValueIdx
open Idealize.SL.Sem

variable {F : FTy → Type} [FloatOps F]

variable (m : (ℓ : Loc nD τ sig) → Buf (Elt F) ℓ)

/-! ## What the buffers hold at the region's entry -/

theorem V_main_arg0 (c : Dev nD) : V m c main_arg0 = m ((c : Thread nD τ).loc main_arg0) := by
  dsimp only [V, linesBefore]
  simp only [hostOps0, hostOps0_1, List.flatten_cons, List.flatten_nil, List.append_nil, List.cons_append, List.nil_append]
  after_results
theorem V_main_arg1 (c : Dev nD) : V m c main_arg1 = m ((c : Thread nD τ).loc main_arg1) := by
  dsimp only [V, linesBefore]
  simp only [hostOps0, hostOps0_1, List.flatten_cons, List.flatten_nil, List.append_nil, List.cons_append, List.nil_append]
  after_results
theorem V_main_arg2 (c : Dev nD) : V m c main_arg2 = m ((c : Thread nD τ).loc main_arg2) := by
  dsimp only [V, linesBefore]
  simp only [hostOps0, hostOps0_1, List.flatten_cons, List.flatten_nil, List.append_nil, List.cons_append, List.nil_append]
  after_results
theorem V_main_arg3 (c : Dev nD) : V m c main_arg3 = m ((c : Thread nD τ).loc main_arg3) := by
  dsimp only [V, linesBefore]
  simp only [hostOps0, hostOps0_1, List.flatten_cons, List.flatten_nil, List.append_nil, List.cons_append, List.nil_append]
  after_results
theorem V_main_arg4 (c : Dev nD) : V m c main_arg4 = m ((c : Thread nD τ).loc main_arg4) := by
  dsimp only [V, linesBefore]
  simp only [hostOps0, hostOps0_1, List.flatten_cons, List.flatten_nil, List.append_nil, List.cons_append, List.nil_append]
  after_results
theorem V_main_arg5 (c : Dev nD) : V m c main_arg5 = m ((c : Thread nD τ).loc main_arg5) := by
  dsimp only [V, linesBefore]
  simp only [hostOps0, hostOps0_1, List.flatten_cons, List.flatten_nil, List.append_nil, List.cons_append, List.nil_append]
  after_results

/-- The image batch with each pixel's channels laid side by side. -/
theorem V_main_v0 (c : Dev nD) :
    (V m c main_v0 : S64x512x1536.Idx → Elt F .f32)
      = shapeCast S64x512x1536 (m ((c : Thread nD τ).loc main_arg0) : S64x512x512x3.Idx → Elt F .f32) shapeCasts_S64x512x512x3_S64x512x1536 := by
  dsimp only [V, linesBefore]
  simp only [hostOps0, hostOps0_1, List.flatten_cons, List.flatten_nil, List.append_nil, List.cons_append, List.nil_append]
  after_results
  rfl

/-- A word clamped into 0 … 63: the signed maximum with 0, then the signed minimum with 63. -/
def clampWord (p : BitVec 32) : BitVec 32 := IntOp.minsi 63#32 (IntOp.maxsi 0#32 p)

/-- Table 4: perm, word by word clamped. -/
theorem V_main_v1 (c : Dev nD) (x : S64.Idx) :
    (V m c main_v1 : S64.Idx → BitVec 32) x = clampWord ((m ((c : Thread nD τ).loc main_arg5) : S64.Idx → BitVec 32) x) := by
  dsimp only [V, linesBefore]
  simp only [hostOps0, hostOps0_1, List.flatten_cons, List.flatten_nil, List.append_nil, List.cons_append, List.nil_append]
  after_results
  rfl

theorem toInt_zero32 : (0#32 : BitVec 32).toInt = 0 := by decide
theorem toInt_63 : (63#32 : BitVec 32).toInt = 63 := by decide
theorem toInt_64 : (64#32 : BitVec 32).toInt = 64 := by decide

/-- A word whose signed value lies in 0 … n - 1 (n small) has that value as its natural-number value. -/
theorem toNat_of_toInt (p : BitVec 32) (h0 : 0 ≤ p.toInt) : (p.toNat : Int) = p.toInt := by
  have hp := BitVec.toInt_eq_toNat_cond p
  have hlt := p.isLt
  split at hp <;> omega

/-- The clamp's result, read as a natural number, is at most 63. -/
theorem clampWord_le (p : BitVec 32) : (clampWord p).toNat ≤ 63 := by
  unfold clampWord IntOp.minsi IntOp.maxsi
  by_cases hneg : p.slt 0#32 = true
  · rw [if_pos hneg]
    rw [if_neg (by simp only [BitVec.slt, toInt_63, toInt_zero32]; decide)]
    decide
  · rw [if_neg hneg]
    by_cases hbig : (63#32 : BitVec 32).slt p = true
    · rw [if_pos hbig]; decide
    · rw [if_neg hbig]
      simp only [BitVec.slt, decide_eq_true_eq, toInt_63, toInt_zero32, not_lt] at hneg hbig
      have := toNat_of_toInt p hneg
      omega

/-- A word already in 0 … 63 is left alone. -/
theorem clampWord_of_inRange (p : BitVec 32) (h : Cert.CutMix.InRange p) : clampWord p = p := by
  obtain ⟨h0, h1⟩ := h
  simp only [BitVec.slt, BitVec.sle, decide_eq_true_eq, toInt_64, toInt_zero32] at h0 h1
  have hneg : ¬ (p.slt 0#32 = true) := by simp only [BitVec.slt, decide_eq_true_eq, toInt_zero32]; omega
  have hbig : ¬ ((63#32 : BitVec 32).slt p = true) := by simp only [BitVec.slt, decide_eq_true_eq, toInt_63]; omega
  unfold clampWord IntOp.minsi IntOp.maxsi
  rw [if_neg hneg, if_neg hbig]

/-- and names itself as a sample. -/
theorem row_of_inRange (p : BitVec 32) (h : Cert.CutMix.InRange p) : (Cert.CutMix.row p).val = p.toNat := by
  obtain ⟨h0, h1⟩ := h
  simp only [BitVec.slt, BitVec.sle, decide_eq_true_eq, toInt_64, toInt_zero32] at h0 h1
  have := toNat_of_toInt p h0
  show p.toNat % 64 = p.toNat
  apply Nat.mod_eq_of_lt
  omega

/-! ## The tables -/

/-- The tables' contents when the region is entered (there is one device). -/
def tbl : pre0.Contents (Elt F) := fun j => V m (0 : Dev nD) (pre0.ref j)

theorem V_pre (c : Dev nD) (j : Fin 5) : V m c (pre0.ref j) = tbl m j := by
  obtain rfl : c = 0 := Subsingleton.elim _ _; rfl

/-- The word of table 4 the second input window's index map reads at grid point i. -/
abbrev permWord (pf : pre0.Contents (Elt F)) (i : grid0.Coords) : BitVec 32 :=
  pf.at 4 (Rect.unit (s := S64) (k0_off1 i) S1.size (k0_off1_inb i)) numel1_S1

/-- The second input window's block index: that word along the samples, the grid's second coordinate along the rows. -/
theorem transform_1_eq (pf : pre0.Contents (Elt F)) (i : grid0.Coords) :
    cc0_transform_1 k0_off1_inb numel1_S1 pf i = ![(permWord pf i).toNat, (BitVec.ofNat 32 (i 1).val).toNat, (0#32 : BitVec 32).toNat] := rfl

/-- Any contents whose table-4 words are at most 63 satisfy the pipeline's side condition. -/
theorem ok_of_le (pf : pre0.Contents (Elt F)) (h : ∀ i : grid0.Coords, (permWord pf i).toNat ≤ 63) : ok0 (F := F) pf := by
  intro i
  refine ⟨fun a => ?_, .inl rfl⟩
  rw [transform_1_eq]
  have hw := h i
  generalize permWord pf i = w at hw
  have h1 : (i 1).val < 4 := (i 1).isLt
  match a with
  | ⟨0, _⟩ => show (w.toNat + 1) * 1 ≤ 64; omega
  | ⟨1, _⟩ =>
    show ((BitVec.ofNat 32 (i 1).val).toNat + 1) * 128 ≤ 512
    rw [BitVec.toNat_ofNat, Nat.mod_eq_of_lt (by omega)]; omega
  | ⟨2, _⟩ => show ((0#32 : BitVec 32).toNat + 1) * 1536 ≤ 1536; decide

/-- The region's tables do. -/
theorem tbl4_apply (x : S64.Idx) :
    (tbl m 4 : S64.Idx → BitVec 32) x = clampWord ((m (((0 : Dev nD) : Thread nD τ).loc main_arg5) : S64.Idx → BitVec 32) x) :=
  V_main_v1 m 0 x

theorem ok_tbl : ok0 (F := F) (tbl m) :=
  ok_of_le (tbl m) fun i => (le_of_eq (congrArg BitVec.toNat (tbl4_apply m _))).trans (clampWord_le _)

/-- The tables as admissible contents, and the pipeline at them. -/
abbrev adm : (pcfg0 (F := F)).Adm := ⟨tbl m, ok_tbl m⟩

end Cert.Kernel.Hand

end
-- ==== Proof.BodyK.lean ====
/-
  The kernel body at one grid point, run symbolically.

  The body reads four words (the sample's box bounds) from the tables, loads its two input blocks and stores, in one
  store of the whole block, their blend under the box mask. It reads table 4 only through the pipeline's index map,
  never itself. Whatever the output's staging buffer held before, afterwards it holds what that one store wrote.
-/
import proofs.«427257_j12232066859295_2_alg».proof.Proof.TablesK
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Each table as the body is handed it: its whole buffer as a memref. -/
abbrev tbM0 : Memref sig .tc .smem S64 .i32 := Memref.whole main_arg1
abbrev htbM0 : tbM0.IsWhole := Memref.isWhole_whole _
abbrev tbM1 : Memref sig .tc .smem S64 .i32 := Memref.whole main_arg2
abbrev htbM1 : tbM1.IsWhole := Memref.isWhole_whole _
abbrev tbM2 : Memref sig .tc .smem S64 .i32 := Memref.whole main_arg3
abbrev htbM2 : tbM2.IsWhole := Memref.isWhole_whole _
abbrev tbM3 : Memref sig .tc .smem S64 .i32 := Memref.whole main_arg4
abbrev htbM3 : tbM3.IsWhole := Memref.isWhole_whole _
abbrev tbM4 : Memref sig .tc .smem S64 .i32 := Memref.whole main_v1
abbrev htbM4 : tbM4.IsWhole := Memref.isWhole_whole _

/-- A table's buffer on core c, held at half the full share (the pipeline keeps the other half): readable, not writable. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

set_option maxHeartbeats 1000000 in
/-- The body's run on whole staging memrefs: the inputs at their contents, the output at anything, the tables at
    theirs; it ends with the inputs and the tables as they were and the output with the body's stores written. -/
noncomputable def kernelRun (c : Dev nD) (i : grid0.Coords)
    (arg7 : Memref sig .tc .vmem S1x128x1536 .f32) (h7 : arg7.IsWhole) (arg8 : Memref sig .tc .vmem S1x128x1536 .f32) (h8 : arg8.IsWhole)
    (arg9 : Memref sig .tc .vmem S1x128x1536 .f32) (h9 : arg9.IsWhole)
    (x0 x1 : Vec F S1x128x1536 .f32)
    (t0 : TbBuf (F := F) c tbM0) (t1 : TbBuf (F := F) c tbM1) (t2 : TbBuf (F := F) c tbM2) (t3 : TbBuf (F := F) c tbM3) (t4 : TbBuf (F := F) c tbM4) :
    { L : List (View.Piece (Elt F) S1x128x1536 .f32) //
      ∀ (E : Set ℕ) (K : PUnit → sProp 𝕄),
        iprop(owns (c : Thread nD τ) arg7 fullShare x0 ∗ owns (c : Thread nD τ) arg8 fullShare x1 ∗ (∃ d, owns (c : Thread nD τ) arg9 fullShare d)
            ∗ tbPt c tbM0 t0 ∗ tbPt c tbM1 t1 ∗ tbPt c tbM2 t2 ∗ tbPt c tbM3 t3 ∗ tbPt c tbM4 t4
            ∗ (iprop(owns (c : Thread nD τ) arg7 fullShare x0 ∗ owns (c : Thread nD τ) arg8 fullShare x1
                ∗ (∃ f, arg9.view.loc (c : Thread nD τ) ↦[arg9.view.set]{fullShare} arg9.view.writes (Elt F) f L)
                ∗ tbPt c tbM0 t0 ∗ tbPt c tbM1 t1 ∗ tbPt c tbM2 t2 ∗ tbPt c tbM3 t3 ∗ tbPt c tbM4 t4) -∗ K ⟨⟩))
          ⊢ wp frame (wpE (defs₀ (F := F)) Variants.none c none) E
              (cc0__cutmix_kernel i tbM0 htbM0 tbM1 htbM1 tbM2 htbM2 tbM3 htbM3 tbM4 htbM4 arg7 h7 arg8 h8 arg9 h9) K } := by
  refine ⟨?_, fun E K => ?run⟩
  case run =>
    simp only [cc0__cutmix_kernel_eq_skeleton]; unfold cc0__cutmix_kernel_skel
    simp only [k0_part1_eq_skeleton]
    unfold owns
    iintro ⟨⟨%f0, %hf0, H0⟩, ⟨%f1, %hf1, H1⟩, ⟨%d2, %f2, -, H2⟩, HT0, HT1, HT2, HT3, HT4, Hk⟩
    obtain rfl := h7.eq_unread hf0
    obtain rfl := h8.eq_unread hf1
    sl_exec
    sl_step
    iapply Hk
    isplitl [H0]
    · iexists _; isplitr; · ipureintro; exact h7.read_unread _
      iexact H0
    isplitl [H1]
    · iexists _; isplitr; · ipureintro; exact h8.read_unread _
      iexact H1
    isplitl [H2]; · iexists _; iexact H2
    isplitl [HT0]; · iexact HT0
    isplitl [HT1]; · iexact HT1
    isplitl [HT2]; · iexact HT2
    isplitl [HT3]; · iexact HT3
    iexact HT4

/-- The run's one store is of the whole block, so its pieces cover the block. -/
theorem cover (c : Dev nD) (i : grid0.Coords)
    (arg7 : Memref sig .tc .vmem S1x128x1536 .f32) (h7 : arg7.IsWhole) (arg8 : Memref sig .tc .vmem S1x128x1536 .f32) (h8 : arg8.IsWhole)
    (arg9 : Memref sig .tc .vmem S1x128x1536 .f32) (h9 : arg9.IsWhole)
    (x0 x1 : Vec F S1x128x1536 .f32)
    (t0 : TbBuf (F := F) c tbM0) (t1 : TbBuf (F := F) c tbM1) (t2 : TbBuf (F := F) c tbM2) (t3 : TbBuf (F := F) c tbM3) (t4 : TbBuf (F := F) c tbM4)
    (y : S1x128x1536.Idx) :
    ∃ pc ∈ (kernelRun c i arg7 h7 arg8 h8 arg9 h9 x0 x1 t0 t1 t2 t3 t4).1, y ∈ pc.1.set :=
  View.cover_of_wholeMem (kernelRun c i arg7 h7 arg8 h8 arg9 h9 x0 x1 t0 t1 t2 t3 t4).1 (by sl_whole_mem) y

/-- One staging buffer of the output window, through which its contents are stated (the choice does not matter). -/
abbrev VO : View sig .tc .vmem S1x128x1536 .f32 := (Memref.whole cc0_stg2_0 : Memref sig .tc .vmem S1x128x1536 .f32).view

/-- What the run leaves in the output's staging buffer: its pieces read back over anything. -/
def outBlk (c : Dev nD) (i : grid0.Coords)
    (arg7 : Memref sig .tc .vmem S1x128x1536 .f32) (h7 : arg7.IsWhole) (arg8 : Memref sig .tc .vmem S1x128x1536 .f32) (h8 : arg8.IsWhole)
    (arg9 : Memref sig .tc .vmem S1x128x1536 .f32) (h9 : arg9.IsWhole)
    (x0 x1 : Vec F S1x128x1536 .f32)
    (t0 : TbBuf (F := F) c tbM0) (t1 : TbBuf (F := F) c tbM1) (t2 : TbBuf (F := F) c tbM2) (t3 : TbBuf (F := F) c tbM3) (t4 : TbBuf (F := F) c tbM4) :
    Vec F S1x128x1536 .f32 :=
  VO.read (Elt F) (VO.writes (Elt F) VO.junk (kernelRun c i arg7 h7 arg8 h8 arg9 h9 x0 x1 t0 t1 t2 t3 t4).1)

/-- The word of a table the body loads at grid point i: the table's entry at the point's sample. -/
abbrev wordOf (c : Dev nD) (i : grid0.Coords) (M : Memref sig .tc .smem S64 .i32) (t : TbBuf (F := F) c M) : Elt F .i32 :=
  M.view.readAt (Elt F) (Rect.unit (s := S64) (k0_off1 i) S1.size (k0_off1_inb i)).toLoadRect t (Shape.Idx.first (numel1_S1.symm ▸ Nat.one_pos))

theorem hz3 : (![0, 0, 0] : Fin 3 → Nat) = fun _ => 0 := funext fun a => by fin_cases a <;> rfl

set_option maxHeartbeats 1000000 in
/-- The stored block is the blend, under the mask of the four loaded words, of the two loaded blocks. -/
theorem outBlk_eq (c : Dev nD) (i : grid0.Coords)
    (arg7 : Memref sig .tc .vmem S1x128x1536 .f32) (h7 : arg7.IsWhole) (arg8 : Memref sig .tc .vmem S1x128x1536 .f32) (h8 : arg8.IsWhole)
    (arg9 : Memref sig .tc .vmem S1x128x1536 .f32) (h9 : arg9.IsWhole)
    (x0 x1 : Vec F S1x128x1536 .f32)
    (t0 : TbBuf (F := F) c tbM0) (t1 : TbBuf (F := F) c tbM1) (t2 : TbBuf (F := F) c tbM2) (t3 : TbBuf (F := F) c tbM3) (t4 : TbBuf (F := F) c tbM4) :
    outBlk c i arg7 h7 arg8 h8 arg9 h9 x0 x1 t0 t1 t2 t3 t4
      = k0_pay1 (k0_pay2 (F := F) i (wordOf c i tbM0 t0) (wordOf c i tbM1 t1) (wordOf c i tbM2 t2) (wordOf c i tbM3 t3)) x1 x0 := by
  unfold outBlk
  rw [View.read_writes_eq_canon _ _ _ (cover c i arg7 h7 arg8 h8 arg9 h9 x0 x1 t0 t1 t2 t3 t4)]
  unfold kernelRun
  dsimp only
  sl_unfold_words
  rw [View.canon_unit_zero (S := S1x128x1536) hz3]
  simp only [View.readAt_eq_ld, h7.read_unread, h8.read_unread, View.ld_unit_zero (S := S1x128x1536) hz3]
  rfl

end Cert.Kernel.Hand

end
-- ==== Proof.RegionK.lean ====
/-
  The kernel region: its proof data and the obligation of its body at every grid point.

  Two input windows look at the SAME array (the image batch with its channels laid side by side): window 0 at the grid
  point's own sample, window 1 at the sample table 4 names there. Each holds half of the array's share, which is
  enough to read. The output window's block at point (i, j) is rows 128·j … 128·j + 127 of sample i; the body
  overwrites it whole, so what the staging buffer held before never matters.
-/
import proofs.«427257_j12232066859295_2_alg».proof.Proof.BodyK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline at the region's tables. -/
abbrev cfgM : Pipeline.Cfg sig Λ₀ := cfg0 (adm m)

/-- The tables' halves the region hands the body, table by table. -/
theorem PhiT_eq (pf : pre0.Contents (Elt F)) (c : Dev nD) :
    (Pipeline.ΦT pre0 pf c : sProp 𝕄)
      = iprop(tbPt c tbM0 (pf 0) ∗ tbPt c tbM1 (pf 1) ∗ tbPt c tbM2 (pf 2) ∗ tbPt c tbM3 (pf 3) ∗ tbPt c tbM4 (pf 4)) := by
  unfold Pipeline.ΦT Pipeline.prefHeld
  exact bigSep_univ_eq_bigSepL [(0 : Fin 5), (1 : Fin 5), (2 : Fin 5), (3 : Fin 5), (4 : Fin 5)] (by decide) (by decide) _

/-- Window w's block at point t, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- Each window's current staging memref at point t, as the pipeline passes it to the body, and its wholeness. -/
abbrev ms0 (t : Fin (cfgM m).N) : Memref sig .tc .vmem S1x128x1536 .f32 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S1x128x1536 .f32 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S1x128x1536 .f32 := spec0_2.stage ((cfgM m).slots t 2)
abbrev hs2 (t : Fin (cfgM m).N) : (ms2 m t).IsWhole := hstage0_2 (((cfgM m).slots t 2).cast nbuf0_2)

/-- The kernel body at point t, on what the pipeline calls it with. -/
abbrev bodyAt (t : Fin (cfgM m).N) : Prog (TpuEff nD τ sig (Elt F) Λ₀ .tc) PUnit :=
  cc0__cutmix_kernel (grid0.coords t) tbM0 htbM0 tbM1 htbM1 tbM2 htbM2 tbM3 htbM3 tbM4 htbM4 (ms0 m t) (hs0 m t) (ms1 m t) (hs1 m t) (ms2 m t) (hs2 m t)

/-- What the output's staging buffer holds after the body at point t. -/
def outAt (c : Dev nD) (t : Fin (cfgM m).N) : Vec F S1x128x1536 .f32 :=
  outBlk c (grid0.coords t) (ms0 m t) (hs0 m t) (ms1 m t) (hs1 m t) (ms2 m t) (hs2 m t) (iblk m c 0 t) (iblk m c 1 t)
    (tbl m 0) (tbl m 1) (tbl m 2) (tbl m 3) (tbl m 4)

/-- The invariant between points: the scoped buffers no window stages, and the tables' halves. -/
abbrev Φc (c : Dev nD) : sProp 𝕄 :=
  iprop(Pipeline.scopedRest (Ix := Unit) (Name := ℕ) (U := UR sig nD τ) (Lvl := ℕ) (Val := Elt F) spec0 c ∗ Pipeline.ΦT pre0 (tbl m) c)

/-- The proof data on core c: the arrays as the region finds them; after the body each input's buffer at its block
    and the output's at the body's store; the two input windows each at half the share of their common array;
    nothing owed. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => outAt m c t
  Φ _ := Φc m c
  q w := match w with
    | ⟨0, _⟩ => fullShare.left
    | ⟨1, _⟩ => fullShare.right
    | ⟨2, _⟩ => fullShare
  owed _ := 0

theorem A_eq (c : Dev nD) (w : Fin (cfgM m).W) : (dats m 0 c).A w = V m c (Pipeline.arrRef spec0 w) := by
  dsimp only [dats]

theorem after_0 (c : Dev nD) (t : Fin (cfgM m).N) : (dats m 0 c).after 0 t = iblk m c 0 t := by dsimp only [dats]; try rfl
theorem after_1 (c : Dev nD) (t : Fin (cfgM m).N) : (dats m 0 c).after 1 t = iblk m c 1 t := by dsimp only [dats]; try rfl
theorem after_2 (c : Dev nD) (t : Fin (cfgM m).N) : (dats m 0 c).after 2 t = outAt m c t := by dsimp only [dats]; try rfl

/-- An input window's current staging buffer holds its block at every point, fetched there or not. -/
theorem before_0 (c : Dev nD) (t : Fin (cfgM m).N) (d) : (dats m 0 c).before 0 t d = iblk m c 0 t :=
  ((dats m 0 c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin (cfgM m).N) (d) : (dats m 0 c).before 1 t d = iblk m c 1 t :=
  ((dats m 0 c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)

/-- What the body is called with at point t, the windows one by one, -/
def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d)))

/-- and what it returns. -/
def bodyPost (c : Dev nD) (t : Fin (cfgM m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t))

/-- The body at any point: the inputs' memrefs hold their blocks, so the run applies; the invariant's tables are
    lent to it and come back; the core owes nothing throughout. -/
theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before_0, before_1]
  rw [show (dats m 0 c).Φ t.succ = (dats m 0 c).Φ t.castSucc from rfl,
    show (dats m 0 c).owesAt () t.succ = (dats m 0 c).owesAt () t.castSucc from rfl,
    after_0, after_1, after_2]
  rw [show (dats m 0 c).Φ t.castSucc = Φc m c from rfl]
  unfold Φc
  rw [PhiT_eq]
  unfold outAt outBlk
  iintro ⟨⟨HΦ, ⟨HT0, HT1, HT2, HT3, HT4⟩⟩, Ho, ⟨%d0, H0⟩, ⟨%d1, H1⟩, ⟨%d2, H2⟩⟩
  iapply ((kernelRun c (grid0.coords t) _ _ _ _ _ _ (iblk m c 0 t) (iblk m c 1 t) (tbl m 0) (tbl m 1) (tbl m 2) (tbl m 3) (tbl m 4)).2 Set.univ _)
  isplitl [H0]; · iexact H0
  isplitl [H1]; · iexact H1
  isplitl [H2]; · iexists _; iexact H2
  isplitl [HT0]; · iexact HT0
  isplitl [HT1]; · iexact HT1
  isplitl [HT2]; · iexact HT2
  isplitl [HT3]; · iexact HT3
  isplitl [HT4]; · iexact HT4
  iintro ⟨H0, H1, ⟨%e2, H2⟩, HT0, HT1, HT2, HT3, HT4⟩
  isplitl [HΦ HT0 HT1 HT2 HT3 HT4]
  · isplitl [HΦ]; · iexact HΦ
    isplitl [HT0]; · iexact HT0
    isplitl [HT1]; · iexact HT1
    isplitl [HT2]; · iexact HT2
    isplitl [HT3]; · iexact HT3
    iexact HT4
  isplitl [Ho]; · iexact Ho
  isplitl [H0]; · iexact H0
  isplitl [H1]; · iexact H1
  unfold owns; iexists _; isplitr
  swap; · iexact H2
  ipureintro; exact View.read_writes_of_cover _ _ _ _ _ (cover c _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.LaunchK.lean ====
/-
  The launch: the whole program runs to its end, and what its buffers then hold.

  The host lines before the region, the region, the host line after it. The region is handed the image batch split
  between its two input windows, half the share each; the result array whole; the tables. At its exit the result
  array holds what the library computes from the body's write-backs, and the last host line reshapes that into the
  program's result. Nothing writes an argument.
-/
import proofs.«427257_j12232066859295_2_alg».proof.Proof.RegionK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The shares -/

theorem share_0 (c : Dev nD) : (dats m 0 c).share 0 = fullShare.left := rfl
theorem share_1 (c : Dev nD) : (dats m 0 c).share 1 = fullShare.right := rfl
theorem share_2 (c : Dev nD) : (dats m 0 c).share 2 = fullShare := rfl

/-- The windows' arrays are two buffers: the image batch (twice) and the result. -/
theorem arr_image : Finset.univ.image (Pipeline.arrRef spec0) = ([main_v0, main_v2] : List (Ref sig .tc)).toFinset := by decide

/-- The two buffers behind the arrays, each whole at contents W. -/
theorem arrBufs_eq (c : Dev nD) (W : (b : Ref sig .tc) → Buf (Elt F) ((c : Thread nD τ).loc b)) :
    (Pipeline.arrBufs (cfgM m).spec c W : sProp 𝕄)
      = iprop((((c : Thread nD τ).loc main_v0) ↦{fullShare} W main_v0) ∗ (((c : Thread nD τ).loc main_v2) ↦{fullShare} W main_v2)) := by
  unfold Pipeline.arrBufs
  exact bigSep_eq_bigSepL_of_eq [main_v0, main_v2] arr_image (by decide) _

/-- The pipeline's arrays at contents G give, window by window, points-tos of whole buffers, -/
theorem arrays_elim (c : Dev nD) (G : (w : Fin (cfgM m).W) → Buf (Elt F) (((cfgM m).win w).arr.view.loc (c : Thread nD τ))) :
    ((dats m 0 c).arrays G : sProp 𝕄)
      ⊢ iprop((((c : Thread nD τ).loc main_v0) ↦{fullShare.left} G 0) ∗ (((c : Thread nD τ).loc main_v0) ↦{fullShare.right} G 1)
          ∗ (((c : Thread nD τ).loc main_v2) ↦{fullShare} G 2)) := by
  unfold Dat.arrays
  rw [bigSep_W0]
  show iprop((((Memref.whole main_v0 : Memref sig .tc .hbm S64x512x1536 .f32).view.loc (c : Thread nD τ)) ↦[(Memref.whole main_v0 : Memref sig .tc .hbm S64x512x1536 .f32).view.set]{fullShare.left} G 0)
      ∗ (((Memref.whole main_v0 : Memref sig .tc .hbm S64x512x1536 .f32).view.loc (c : Thread nD τ)) ↦[(Memref.whole main_v0 : Memref sig .tc .hbm S64x512x1536 .f32).view.set]{fullShare.right} G 1)
      ∗ (((Memref.whole main_v2 : Memref sig .tc .hbm S64x512x1536 .f32).view.loc (c : Thread nD τ)) ↦[(Memref.whole main_v2 : Memref sig .tc .hbm S64x512x1536 .f32).view.set]{fullShare} G 2)) ⊢ _
  simp only [View.set_whole]
  iintro ⟨H0, H1, H2⟩
  isplitl [H0]; · iexact H0
  isplitl [H1]; · iexact H1
  iexact H2

/-- and are made of them. -/
theorem arrays_intro (c : Dev nD) (G : (w : Fin (cfgM m).W) → Buf (Elt F) (((cfgM m).win w).arr.view.loc (c : Thread nD τ))) :
    iprop((((c : Thread nD τ).loc main_v0) ↦{fullShare.left} G 0) ∗ (((c : Thread nD τ).loc main_v0) ↦{fullShare.right} G 1)
          ∗ (((c : Thread nD τ).loc main_v2) ↦{fullShare} G 2))
      ⊢ ((dats m 0 c).arrays G : sProp 𝕄) := by
  unfold Dat.arrays
  rw [bigSep_W0]
  show _ ⊢ iprop((((Memref.whole main_v0 : Memref sig .tc .hbm S64x512x1536 .f32).view.loc (c : Thread nD τ)) ↦[(Memref.whole main_v0 : Memref sig .tc .hbm S64x512x1536 .f32).view.set]{fullShare.left} G 0)
      ∗ (((Memref.whole main_v0 : Memref sig .tc .hbm S64x512x1536 .f32).view.loc (c : Thread nD τ)) ↦[(Memref.whole main_v0 : Memref sig .tc .hbm S64x512x1536 .f32).view.set]{fullShare.right} G 1)
      ∗ (((Memref.whole main_v2 : Memref sig .tc .hbm S64x512x1536 .f32).view.loc (c : Thread nD τ)) ↦[(Memref.whole main_v2 : Memref sig .tc .hbm S64x512x1536 .f32).view.set]{fullShare} G 2))
  simp only [View.set_whole]
  iintro ⟨H0, H1, H2⟩
  isplitl [H0]; · iexact H0
  isplitl [H1]; · iexact H1
  iexact H2

/-- The region's entry: the two buffers behind the arrays make the pipeline's arrays, the image batch's share halved. -/
theorem hsplit (c : Dev nD) :
    (Pipeline.arrBufs (cfgM m).spec c (V m c) : sProp 𝕄) ⊢ (dats m 0 c).arrays ((dats m 0 c).arrAt · 0) := by
  rw [arrBufs_eq]
  iintro ⟨H0, H2⟩
  ihave H := (pointsTo_share (PosShare.mem_left_op_right fullShare)).1 $$ H0
  icases H with ⟨Hl, Hr⟩
  iapply (arrays_intro m c _)
  isplitl [Hl]; · iexact Hl
  isplitl [Hr]; · iexact Hr
  iexact H2

/-! ## The line after the region -/

/-- The region's final result array. -/
abbrev resArr (c : Dev nD) : S64x512x1536.Idx → Elt F .f32 := (dats m 0 c).arrAt 2 (cfgM m).N

/-- The program's result: that array with each row's 1536 lanes read as 512 pixels of 3 channels. -/
abbrev resOut (c : Dev nD) : S64x512x512x3.Idx → Elt F .f32 :=
  shapeCast S64x512x512x3 (resArr m c) shapeCasts_S64x512x1536_S64x512x512x3

/-- The buffer the last line writes, as that line leaves it (`after_tail_v3` below: it is `resOut`). -/
abbrev resBuf (c : Dev nD) : Buf (Elt F) ((c : Thread nD τ).loc main_v3) :=
  StableHlo.after (hostOps1 (F := F)) (Function.update (StableHlo.after (linesBefore (F := F)).flatten (fun b => m (c, b))) (Proc.devRef .tc main_v2) (resArr m c)) (Proc.devRef .tc main_v3)

/-- What bypasses the region: every unscoped buffer that is neither an array of a window nor a table. -/
abbrev Zc (c : Dev nD) : sProp 𝕄 :=
  Pipeline.unscopedRestP (Ix := Unit) (Name := ℕ) (U := UR sig nD τ) (Lvl := ℕ) pre0 (cfgM m).spec c (V m c)

/-- What is read at the end beside the arrays and the tables: the image batch and perm as launched, the result. -/
abbrev Zc' (c : Dev nD) : sProp 𝕄 :=
  iprop((((c : Thread nD τ).loc main_arg0) ↦{fullShare} V m c main_arg0) ∗ (((c : Thread nD τ).loc main_arg5) ↦{fullShare} V m c main_arg5)
    ∗ (((c : Thread nD τ).loc main_v3) ↦{fullShare} resBuf m c))

/-- The buffers the last line touches. -/
abbrev tailList : List (DevRef τ sig) := [Proc.devRef .tc main_v2, Proc.devRef .tc main_v3]
abbrev tailSet : Finset (DevRef τ sig) := (tailList).toFinset

theorem tailList_nodup : (tailList).Nodup :=
  List.nodup_cons.mpr ⟨by rw [List.mem_singleton]; exact StableHlo.devRef_ne_of_ne (by decide), List.nodup_singleton _⟩

/-- The contents it starts from: the result array as the region left it, everything else as at the region's entry. -/
abbrev tailV (c : Dev nD) : Valuation τ sig (Elt F) :=
  Function.update (StableHlo.after (linesBefore (F := F)).flatten (fun b => m (c, b))) (Proc.devRef .tc main_v2) (resArr m c)

theorem tailV_v2 (c : Dev nD) : tailV m c (Proc.devRef .tc main_v2) = resArr m c := Function.update_self ..
theorem tailV_v3 (c : Dev nD) : tailV m c (Proc.devRef .tc main_v3) = V m c main_v3 :=
  Function.update_of_ne (StableHlo.devRef_ne_of_ne (by decide)) ..

theorem held_tail (c : Dev nD) (W : Valuation τ sig (Elt F)) :
    (StableHlo.held (c : Thread nD τ) tailSet W : sProp 𝕄)
      = iprop((((c : Thread nD τ).loc main_v2) ↦{fullShare} W (Proc.devRef .tc main_v2)) ∗ (((c : Thread nD τ).loc main_v3) ↦{fullShare} W (Proc.devRef .tc main_v3))) := by
  unfold StableHlo.held
  exact bigSep_eq_bigSepL_of_eq tailList rfl tailList_nodup _

theorem after_tail_v2 (c : Dev nD) : StableHlo.after (hostOps1 (F := F)) (tailV m c) (Proc.devRef .tc main_v2) = resArr m c := by
  rw [StableHlo.after_of_forall_not_mem (b := Proc.devRef .tc main_v2) hostOps1 (tailV m c) (by
    intro op hop
    simp only [hostOps1, List.mem_cons, List.mem_nil_iff, or_false] at hop
    subst hop
    simp only [StableHlo.reshape_writes, Finset.mem_singleton]
    exact StableHlo.devRef_ne_of_ne (by decide))]
  exact tailV_v2 m c

theorem after_tail_v3 (c : Dev nD) :
    (resBuf m c : S64x512x512x3.Idx → Elt F .f32) = resOut m c := by
  show (StableHlo.after (hostOps1 (F := F)) (tailV m c) (Proc.devRef .tc main_v3) : S64x512x512x3.Idx → Elt F .f32) = _
  simp only [hostOps1]
  after_results
  rw [tailV_v2]
  rfl

/-- The last line's operations touch only those two buffers and allocate nothing. -/
theorem tail_sub : ∀ op ∈ (hostOps1 (F := F)), op.bufs ⊆ tailSet := by
  intro op hop
  simp only [hostOps1, List.mem_cons, List.mem_nil_iff, or_false] at hop
  subst hop
  rw [StableHlo.reshape_bufs]
  intro b hb
  simp only [Finset.mem_insert, Finset.mem_singleton] at hb
  rcases hb with rfl | rfl <;> simp only [tailSet, tailList, List.mem_toFinset, List.mem_cons, List.mem_nil_iff, or_false, true_or, or_true]
theorem tail_fresh : ∀ op ∈ (hostOps1 (F := F)), op.fresh = ∅ := by
  intro op hop
  simp only [hostOps1, List.mem_cons, List.mem_nil_iff, or_false] at hop
  subst hop; rfl

set_option backward.isDefEq.respectTransparency.types false in
/-- From the region's exit the last line runs: it reads the result array and writes the program's result. -/
theorem htail (c : Dev nD) (Q' : PUnit → sProp 𝕄) :
    iprop((iprop((dats m 0 c).arrays ((dats m 0 c).arrAt · (cfgM m).N) ∗ Zc' m c) -∗ Q' ⟨⟩)
        ∗ boundary (c : Thread nD τ) ∗ (dats m 0 c).arrays ((dats m 0 c).arrAt · (cfgM m).N) ∗ Zc m c)
      ⊢ wp frame (wpE (Pipeline.defs (pcfgs (F := F)) defs₀) (Variants.lift Variants.none) (c : Thread nD τ) none) Set.univ
          (Pipeline.chain ((linesAfter (F := F)).map StableHlo.seq)) Q' := by
  have hseq := StableHlo.wp_seq (defs := Pipeline.defs (pcfgs (F := F)) defs₀) (Variants.lift Variants.none) none Set.univ c tailSet
    (fun _ => (pure ⟨⟩ : Prog (TpuEff nD τ sig (Elt F) (Pipeline.Sig Λ₀ (Fin 1) fun p => (pcfgs (F := F) p).Adm) .tc) PUnit)) (K := Q')
    hostOps1 tail_sub tail_fresh (tailV m c)
  rw [held_tail, held_tail, tailV_v2, tailV_v3, after_tail_v2, wp_pure] at hseq
  unfold Zc
  rw [unscopedRestP0_eq c (V m c)]
  iintro ⟨Hk, Hb, Ha, ⟨H0, H5, -, -, -, -, -, -, -, H3⟩⟩
  ihave Ha' := (arrays_elim m c _) $$ Ha
  icases Ha' with ⟨Ha0, Ha1, Ha2⟩
  simp only [linesAfter, List.map_cons, List.map_nil, Pipeline.chain_cons, Pipeline.chain_nil]
  iapply hseq $$ [Hb Ha2 H3]
  · isplitl [Hb]; · iexact Hb
    isplitl [Ha2]; · iexact Ha2
    iexact H3
  iintro ⟨Hb, Hv2, Hv3⟩
  imodintro
  iapply Hk
  isplitl [Ha0 Ha1 Hv2]
  · iapply (arrays_intro m c _)
    isplitl [Ha0]; · iexact Ha0
    isplitl [Ha1]; · iexact Ha1
    iexact Hv2
  isplitl [H0]; · iexact H0
  isplitl [H5]; · iexact H5
  iexact Hv3

/-! ## The run -/

/-- What every final state satisfies, core by core: the arrays at what the library computes, the tables as the region
    found them, the image batch and perm as at the region's entry, the program's result. -/
def Post (r : PUnit × MemSt nD τ sig (Elt F)) : Prop :=
  ∀ c : Dev nD,
    (∀ w, r.2.mem (((cfgM m).spec w).arr.view.loc (c : Thread nD τ)) = (dats m 0 c).arrAt w (cfgM m).N)
    ∧ (∀ k, r.2.mem ((c : Thread nD τ).loc (pre0.ref k)) = tbl m k)
    ∧ r.2.mem ((c : Thread nD τ).loc main_arg0) = V m c main_arg0
    ∧ r.2.mem ((c : Thread nD τ).loc main_arg5) = V m c main_arg5
    ∧ r.2.mem ((c : Thread nD τ).loc main_v3) = resBuf m c

/-- Reading the three buffers against a final state. -/
theorem hY (c : Dev nD) (s' : Phys nD τ sig (Elt F)) :
    iprop((BI.emp : sProp 𝕄) ∗ Zc' m c ∗ SI s') ⊢ |={Set.univ}=> iprop(⌜s'.mem.mem ((c : Thread nD τ).loc main_arg0) = V m c main_arg0
        ∧ s'.mem.mem ((c : Thread nD τ).loc main_arg5) = V m c main_arg5
        ∧ s'.mem.mem ((c : Thread nD τ).loc main_v3) = resBuf m c⌝ ∗ SI s') := by
  iintro ⟨-, ⟨H0, H5, H3⟩, HSI⟩
  icombine HSI H0 gives %h0
  icombine HSI H5 gives %h5
  icombine HSI H3 gives %h3
  imodintro
  isplitr
  · ipureintro; exact ⟨Buf.eq_of_forall_mem_univ h0, Buf.eq_of_forall_mem_univ h5, Buf.eq_of_forall_mem_univ h3⟩
  iexact HSI

set_option backward.isDefEq.respectTransparency.types false in
/-- At the compiled mesh, for any values, from any memory with zero counters: every weakly fair execution of the
    program on the TensorCores terminates, and every final state satisfies `Post`. -/
theorem run_main : θ_run defs (onTc (τ := τ) (main (F := F))) (s₀ m ρ) (Post m) :=
  Pipeline.θ_run_region_noSem_pf_tail pcfgs (fun _ => adm m) (dats m) () (cellOf_inj fun _ => adm m) (0 : Fin 1) winFacts₀0 preFacts0 emb₁ defs₀ Variants.none
    m ρ main (fun _ => Pipeline.chain ((linesAfter (F := F)).map StableHlo.seq))
    (hbody := fun c => (body_obligation m c).loose)
    (hne := block_pos0) (harr := arr_whole0) (hstage := stage_whole0) (howed := fun _ _ => rfl)
    (u₀ := initOf (Pipeline.cells (Pipeline.pin pcfgs fun _ => adm m) (cellOf_inj fun _ => adm m)) (Pipeline.launchToks (Pipeline.pin pcfgs fun _ => adm m) (cellOf_inj fun _ => adm m)))
    (hu₀ := .rfl)
    (V := V m) (hmain := hmain m Variants.none) (hsplit := hsplit m) (hpf := fun c k => V_pre m c k)
    (X := fun _ => iprop(emp)) (Y := fun _ => iprop(emp)) (Z := Zc m) (Z' := Zc' m)
    (hX := fun c => by
      iintro H
      isplitr; · iempintro
      iexact H)
    (hin := fun c => by
      rw [show (dats m 0 c).Φ 0 = Φc m c from rfl]
      iintro ⟨-, Ht, Hr⟩
      isplitl [Hr]; · iexact Hr
      iexact Ht)
    (hout := fun c => by
      rw [show (dats m 0 c).Φ (Fin.last (cfgM m).N) = Φc m c from rfl]
      iintro ⟨Hr, -⟩
      isplitr; · iempintro
      iexact Hr)
    (htail := fun c Q' => htail m c Q')
    (QY := fun c s => s.mem ((c : Thread nD τ).loc main_arg0) = V m c main_arg0
        ∧ s.mem ((c : Thread nD τ).loc main_arg5) = V m c main_arg5
        ∧ s.mem ((c : Thread nD τ).loc main_v3) = resBuf m c)
    (hY := fun c s' => hY m c s')
    (hQ := fun s h c => ⟨(h c).1, (h c).2.1, (h c).2.2.1, (h c).2.2.2.1, (h c).2.2.2.2⟩)

end Cert.Kernel.Hand

end
-- ==== Proof.HostKI.lean ====
/-
  The program around its one kernel region. Before the region the host reshapes the image batch x from
  [64, 512, 512, 3] to [64, 512, 1536] (a pixel's three channels laid side by side in its row) and clamps every word of
  perm into 0 … 63 (first max with 0, then min with 63, both signed); after it the host reshapes the region's result
  back. This module names what each buffer holds when the region is entered and reduces the program to
  "those host lines, the region, the last host line".
-/
import proofs.«427257_j12232066859295_2_alg».proof.Proof.Gen.KernelIdeal.Launch
import proofs.«427257_j12232066859295_2_alg».proof.Proof.Gen.KernelIdeal.Skeleton
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host lines before the region, and the one after it. -/
abbrev linesBefore : List (List (HloOp τ sig (Elt F))) := [hostOps0, hostOps0_1]
abbrev linesAfter : List (List (HloOp τ sig (Elt F))) := [hostOps1]

/-- What core c's buffers hold when the region is entered: the launch contents after the lines before it. -/
abbrev V (c : Dev nD) (b : Ref sig .tc) : Buf (Elt F) ((c : Thread nD τ).loc b) :=
  StableHlo.after (linesBefore (F := F)).flatten (fun b => m (c, b)) b

/-- The program is: the lines before, the region, the line after. -/
theorem hmain (𝒱₀ : Variants) :
    Pipeline.HMainPK (Ix := Unit) (Name := ℕ) (U := UR sig nD τ) (Lvl := ℕ) pcfgs 0 defs₀ 𝒱₀ m (main (F := F)) (V m)
      (fun _ => Pipeline.chain ((linesAfter (F := F)).map StableHlo.seq)) :=
  Pipeline.hmainP_around pcfgs 0 defs₀ 𝒱₀ m main linesBefore linesAfter
    (And.intro hostOps0_sub hostOps0_1_sub)
    (And.intro ⟨rfl, rfl, rfl⟩ ⟨rfl, rfl, rfl, rfl, rfl, rfl⟩)
    (fun c => (main_chain c).trans rfl)

end Cert.KernelIdeal.Hand

end
-- ==== Proof.TablesKI.lean ====
/-
  The five prefetched tables as the region finds them, and the side condition the pipeline asks of them.

  Tables 0 … 3 are the box bounds y1, y2, x1, x2 as launched; table 4 is perm clamped into 0 … 63. The second
  input window's block index along the sample axis is table 4's word at the grid point's sample, so every block it
  names lies inside the 64 samples whatever perm holds: the clamp's result is at most 63. When the word was already in
  0 … 63 the clamp leaves it alone.
-/
import proofs.«427257_j12232066859295_2_alg».proof.Proof.HostKI
import proofs.«427257_j12232066859295_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.StableHlo
open Idealize.ShloMosaic.ValueIdx
open Idealize.SL.Sem

variable {F : FTy → Type} [FloatOps F]

variable (m : (ℓ : Loc nD τ sig) → Buf (Elt F) ℓ)

/-! ## What the buffers hold at the region's entry -/

theorem V_main_arg0 (c : Dev nD) : V m c main_arg0 = m ((c : Thread nD τ).loc main_arg0) := by
  dsimp only [V, linesBefore]
  simp only [hostOps0, hostOps0_1, List.flatten_cons, List.flatten_nil, List.append_nil, List.cons_append, List.nil_append]
  after_results
theorem V_main_arg1 (c : Dev nD) : V m c main_arg1 = m ((c : Thread nD τ).loc main_arg1) := by
  dsimp only [V, linesBefore]
  simp only [hostOps0, hostOps0_1, List.flatten_cons, List.flatten_nil, List.append_nil, List.cons_append, List.nil_append]
  after_results
theorem V_main_arg2 (c : Dev nD) : V m c main_arg2 = m ((c : Thread nD τ).loc main_arg2) := by
  dsimp only [V, linesBefore]
  simp only [hostOps0, hostOps0_1, List.flatten_cons, List.flatten_nil, List.append_nil, List.cons_append, List.nil_append]
  after_results
theorem V_main_arg3 (c : Dev nD) : V m c main_arg3 = m ((c : Thread nD τ).loc main_arg3) := by
  dsimp only [V, linesBefore]
  simp only [hostOps0, hostOps0_1, List.flatten_cons, List.flatten_nil, List.append_nil, List.cons_append, List.nil_append]
  after_results
theorem V_main_arg4 (c : Dev nD) : V m c main_arg4 = m ((c : Thread nD τ).loc main_arg4) := by
  dsimp only [V, linesBefore]
  simp only [hostOps0, hostOps0_1, List.flatten_cons, List.flatten_nil, List.append_nil, List.cons_append, List.nil_append]
  after_results
theorem V_main_arg5 (c : Dev nD) : V m c main_arg5 = m ((c : Thread nD τ).loc main_arg5) := by
  dsimp only [V, linesBefore]
  simp only [hostOps0, hostOps0_1, List.flatten_cons, List.flatten_nil, List.append_nil, List.cons_append, List.nil_append]
  after_results

/-- The image batch with each pixel's channels laid side by side. -/
theorem V_main_v0 (c : Dev nD) :
    (V m c main_v0 : S64x512x1536.Idx → Elt F .f32)
      = shapeCast S64x512x1536 (m ((c : Thread nD τ).loc main_arg0) : S64x512x512x3.Idx → Elt F .f32) shapeCasts_S64x512x512x3_S64x512x1536 := by
  dsimp only [V, linesBefore]
  simp only [hostOps0, hostOps0_1, List.flatten_cons, List.flatten_nil, List.append_nil, List.cons_append, List.nil_append]
  after_results
  rfl

/-- A word clamped into 0 … 63: the signed maximum with 0, then the signed minimum with 63. -/
def clampWord (p : BitVec 32) : BitVec 32 := IntOp.minsi 63#32 (IntOp.maxsi 0#32 p)

/-- Table 4: perm, word by word clamped. -/
theorem V_main_v1 (c : Dev nD) (x : S64.Idx) :
    (V m c main_v1 : S64.Idx → BitVec 32) x = clampWord ((m ((c : Thread nD τ).loc main_arg5) : S64.Idx → BitVec 32) x) := by
  dsimp only [V, linesBefore]
  simp only [hostOps0, hostOps0_1, List.flatten_cons, List.flatten_nil, List.append_nil, List.cons_append, List.nil_append]
  after_results
  rfl

theorem toInt_zero32 : (0#32 : BitVec 32).toInt = 0 := by decide
theorem toInt_63 : (63#32 : BitVec 32).toInt = 63 := by decide
theorem toInt_64 : (64#32 : BitVec 32).toInt = 64 := by decide

/-- A word whose signed value lies in 0 … n - 1 (n small) has that value as its natural-number value. -/
theorem toNat_of_toInt (p : BitVec 32) (h0 : 0 ≤ p.toInt) : (p.toNat : Int) = p.toInt := by
  have hp := BitVec.toInt_eq_toNat_cond p
  have hlt := p.isLt
  split at hp <;> omega

/-- The clamp's result, read as a natural number, is at most 63. -/
theorem clampWord_le (p : BitVec 32) : (clampWord p).toNat ≤ 63 := by
  unfold clampWord IntOp.minsi IntOp.maxsi
  by_cases hneg : p.slt 0#32 = true
  · rw [if_pos hneg]
    rw [if_neg (by simp only [BitVec.slt, toInt_63, toInt_zero32]; decide)]
    decide
  · rw [if_neg hneg]
    by_cases hbig : (63#32 : BitVec 32).slt p = true
    · rw [if_pos hbig]; decide
    · rw [if_neg hbig]
      simp only [BitVec.slt, decide_eq_true_eq, toInt_63, toInt_zero32, not_lt] at hneg hbig
      have := toNat_of_toInt p hneg
      omega

/-- A word already in 0 … 63 is left alone. -/
theorem clampWord_of_inRange (p : BitVec 32) (h : Cert.CutMix.InRange p) : clampWord p = p := by
  obtain ⟨h0, h1⟩ := h
  simp only [BitVec.slt, BitVec.sle, decide_eq_true_eq, toInt_64, toInt_zero32] at h0 h1
  have hneg : ¬ (p.slt 0#32 = true) := by simp only [BitVec.slt, decide_eq_true_eq, toInt_zero32]; omega
  have hbig : ¬ ((63#32 : BitVec 32).slt p = true) := by simp only [BitVec.slt, decide_eq_true_eq, toInt_63]; omega
  unfold clampWord IntOp.minsi IntOp.maxsi
  rw [if_neg hneg, if_neg hbig]

/-- and names itself as a sample. -/
theorem row_of_inRange (p : BitVec 32) (h : Cert.CutMix.InRange p) : (Cert.CutMix.row p).val = p.toNat := by
  obtain ⟨h0, h1⟩ := h
  simp only [BitVec.slt, BitVec.sle, decide_eq_true_eq, toInt_64, toInt_zero32] at h0 h1
  have := toNat_of_toInt p h0
  show p.toNat % 64 = p.toNat
  apply Nat.mod_eq_of_lt
  omega

/-! ## The tables -/

/-- The tables' contents when the region is entered (there is one device). -/
def tbl : pre0.Contents (Elt F) := fun j => V m (0 : Dev nD) (pre0.ref j)

theorem V_pre (c : Dev nD) (j : Fin 5) : V m c (pre0.ref j) = tbl m j := by
  obtain rfl : c = 0 := Subsingleton.elim _ _; rfl

/-- The word of table 4 the second input window's index map reads at grid point i. -/
abbrev permWord (pf : pre0.Contents (Elt F)) (i : grid0.Coords) : BitVec 32 :=
  pf.at 4 (Rect.unit (s := S64) (k0_off1 i) S1.size (k0_off1_inb i)) numel1_S1

/-- The second input window's block index: that word along the samples, the grid's second coordinate along the rows. -/
theorem transform_1_eq (pf : pre0.Contents (Elt F)) (i : grid0.Coords) :
    cc0_transform_1 k0_off1_inb numel1_S1 pf i = ![(permWord pf i).toNat, (BitVec.ofNat 32 (i 1).val).toNat, (0#32 : BitVec 32).toNat] := rfl

/-- Any contents whose table-4 words are at most 63 satisfy the pipeline's side condition. -/
theorem ok_of_le (pf : pre0.Contents (Elt F)) (h : ∀ i : grid0.Coords, (permWord pf i).toNat ≤ 63) : ok0 (F := F) pf := by
  intro i
  refine ⟨fun a => ?_, .inl rfl⟩
  rw [transform_1_eq]
  have hw := h i
  generalize permWord pf i = w at hw
  have h1 : (i 1).val < 4 := (i 1).isLt
  match a with
  | ⟨0, _⟩ => show (w.toNat + 1) * 1 ≤ 64; omega
  | ⟨1, _⟩ =>
    show ((BitVec.ofNat 32 (i 1).val).toNat + 1) * 128 ≤ 512
    rw [BitVec.toNat_ofNat, Nat.mod_eq_of_lt (by omega)]; omega
  | ⟨2, _⟩ => show ((0#32 : BitVec 32).toNat + 1) * 1536 ≤ 1536; decide

/-- The region's tables do. -/
theorem tbl4_apply (x : S64.Idx) :
    (tbl m 4 : S64.Idx → BitVec 32) x = clampWord ((m (((0 : Dev nD) : Thread nD τ).loc main_arg5) : S64.Idx → BitVec 32) x) :=
  V_main_v1 m 0 x

theorem ok_tbl : ok0 (F := F) (tbl m) :=
  ok_of_le (tbl m) fun i => (le_of_eq (congrArg BitVec.toNat (tbl4_apply m _))).trans (clampWord_le _)

/-- The tables as admissible contents, and the pipeline at them. -/
abbrev adm : (pcfg0 (F := F)).Adm := ⟨tbl m, ok_tbl m⟩

end Cert.KernelIdeal.Hand

end
-- ==== Proof.BodyKI.lean ====
/-
  The kernel body at one grid point, run symbolically.

  The body reads four words (the sample's box bounds) from the tables, loads its two input blocks and stores, in one
  store of the whole block, their blend under the box mask. It reads table 4 only through the pipeline's index map,
  never itself. Whatever the output's staging buffer held before, afterwards it holds what that one store wrote.
-/
import proofs.«427257_j12232066859295_2_alg».proof.Proof.TablesKI
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Each table as the body is handed it: its whole buffer as a memref. -/
abbrev tbM0 : Memref sig .tc .smem S64 .i32 := Memref.whole main_arg1
abbrev htbM0 : tbM0.IsWhole := Memref.isWhole_whole _
abbrev tbM1 : Memref sig .tc .smem S64 .i32 := Memref.whole main_arg2
abbrev htbM1 : tbM1.IsWhole := Memref.isWhole_whole _
abbrev tbM2 : Memref sig .tc .smem S64 .i32 := Memref.whole main_arg3
abbrev htbM2 : tbM2.IsWhole := Memref.isWhole_whole _
abbrev tbM3 : Memref sig .tc .smem S64 .i32 := Memref.whole main_arg4
abbrev htbM3 : tbM3.IsWhole := Memref.isWhole_whole _
abbrev tbM4 : Memref sig .tc .smem S64 .i32 := Memref.whole main_v1
abbrev htbM4 : tbM4.IsWhole := Memref.isWhole_whole _

/-- A table's buffer on core c, held at half the full share (the pipeline keeps the other half): readable, not writable. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

set_option maxHeartbeats 1000000 in
/-- The body's run on whole staging memrefs: the inputs at their contents, the output at anything, the tables at
    theirs; it ends with the inputs and the tables as they were and the output with the body's stores written. -/
noncomputable def kernelRun (c : Dev nD) (i : grid0.Coords)
    (arg7 : Memref sig .tc .vmem S1x128x1536 .f32) (h7 : arg7.IsWhole) (arg8 : Memref sig .tc .vmem S1x128x1536 .f32) (h8 : arg8.IsWhole)
    (arg9 : Memref sig .tc .vmem S1x128x1536 .f32) (h9 : arg9.IsWhole)
    (x0 x1 : Vec F S1x128x1536 .f32)
    (t0 : TbBuf (F := F) c tbM0) (t1 : TbBuf (F := F) c tbM1) (t2 : TbBuf (F := F) c tbM2) (t3 : TbBuf (F := F) c tbM3) (t4 : TbBuf (F := F) c tbM4) :
    { L : List (View.Piece (Elt F) S1x128x1536 .f32) //
      ∀ (E : Set ℕ) (K : PUnit → sProp 𝕄),
        iprop(owns (c : Thread nD τ) arg7 fullShare x0 ∗ owns (c : Thread nD τ) arg8 fullShare x1 ∗ (∃ d, owns (c : Thread nD τ) arg9 fullShare d)
            ∗ tbPt c tbM0 t0 ∗ tbPt c tbM1 t1 ∗ tbPt c tbM2 t2 ∗ tbPt c tbM3 t3 ∗ tbPt c tbM4 t4
            ∗ (iprop(owns (c : Thread nD τ) arg7 fullShare x0 ∗ owns (c : Thread nD τ) arg8 fullShare x1
                ∗ (∃ f, arg9.view.loc (c : Thread nD τ) ↦[arg9.view.set]{fullShare} arg9.view.writes (Elt F) f L)
                ∗ tbPt c tbM0 t0 ∗ tbPt c tbM1 t1 ∗ tbPt c tbM2 t2 ∗ tbPt c tbM3 t3 ∗ tbPt c tbM4 t4) -∗ K ⟨⟩))
          ⊢ wp frame (wpE (defs₀ (F := F)) Variants.none c none) E
              (cc0__cutmix_kernel i tbM0 htbM0 tbM1 htbM1 tbM2 htbM2 tbM3 htbM3 tbM4 htbM4 arg7 h7 arg8 h8 arg9 h9) K } := by
  refine ⟨?_, fun E K => ?run⟩
  case run =>
    simp only [cc0__cutmix_kernel_eq_skeleton]; unfold cc0__cutmix_kernel_skel
    simp only [k0_part1_eq_skeleton]
    unfold owns
    iintro ⟨⟨%f0, %hf0, H0⟩, ⟨%f1, %hf1, H1⟩, ⟨%d2, %f2, -, H2⟩, HT0, HT1, HT2, HT3, HT4, Hk⟩
    obtain rfl := h7.eq_unread hf0
    obtain rfl := h8.eq_unread hf1
    sl_exec
    sl_step
    iapply Hk
    isplitl [H0]
    · iexists _; isplitr; · ipureintro; exact h7.read_unread _
      iexact H0
    isplitl [H1]
    · iexists _; isplitr; · ipureintro; exact h8.read_unread _
      iexact H1
    isplitl [H2]; · iexists _; iexact H2
    isplitl [HT0]; · iexact HT0
    isplitl [HT1]; · iexact HT1
    isplitl [HT2]; · iexact HT2
    isplitl [HT3]; · iexact HT3
    iexact HT4

/-- The run's one store is of the whole block, so its pieces cover the block. -/
theorem cover (c : Dev nD) (i : grid0.Coords)
    (arg7 : Memref sig .tc .vmem S1x128x1536 .f32) (h7 : arg7.IsWhole) (arg8 : Memref sig .tc .vmem S1x128x1536 .f32) (h8 : arg8.IsWhole)
    (arg9 : Memref sig .tc .vmem S1x128x1536 .f32) (h9 : arg9.IsWhole)
    (x0 x1 : Vec F S1x128x1536 .f32)
    (t0 : TbBuf (F := F) c tbM0) (t1 : TbBuf (F := F) c tbM1) (t2 : TbBuf (F := F) c tbM2) (t3 : TbBuf (F := F) c tbM3) (t4 : TbBuf (F := F) c tbM4)
    (y : S1x128x1536.Idx) :
    ∃ pc ∈ (kernelRun c i arg7 h7 arg8 h8 arg9 h9 x0 x1 t0 t1 t2 t3 t4).1, y ∈ pc.1.set :=
  View.cover_of_wholeMem (kernelRun c i arg7 h7 arg8 h8 arg9 h9 x0 x1 t0 t1 t2 t3 t4).1 (by sl_whole_mem) y

/-- One staging buffer of the output window, through which its contents are stated (the choice does not matter). -/
abbrev VO : View sig .tc .vmem S1x128x1536 .f32 := (Memref.whole cc0_stg2_0 : Memref sig .tc .vmem S1x128x1536 .f32).view

/-- What the run leaves in the output's staging buffer: its pieces read back over anything. -/
def outBlk (c : Dev nD) (i : grid0.Coords)
    (arg7 : Memref sig .tc .vmem S1x128x1536 .f32) (h7 : arg7.IsWhole) (arg8 : Memref sig .tc .vmem S1x128x1536 .f32) (h8 : arg8.IsWhole)
    (arg9 : Memref sig .tc .vmem S1x128x1536 .f32) (h9 : arg9.IsWhole)
    (x0 x1 : Vec F S1x128x1536 .f32)
    (t0 : TbBuf (F := F) c tbM0) (t1 : TbBuf (F := F) c tbM1) (t2 : TbBuf (F := F) c tbM2) (t3 : TbBuf (F := F) c tbM3) (t4 : TbBuf (F := F) c tbM4) :
    Vec F S1x128x1536 .f32 :=
  VO.read (Elt F) (VO.writes (Elt F) VO.junk (kernelRun c i arg7 h7 arg8 h8 arg9 h9 x0 x1 t0 t1 t2 t3 t4).1)

/-- The word of a table the body loads at grid point i: the table's entry at the point's sample. -/
abbrev wordOf (c : Dev nD) (i : grid0.Coords) (M : Memref sig .tc .smem S64 .i32) (t : TbBuf (F := F) c M) : Elt F .i32 :=
  M.view.readAt (Elt F) (Rect.unit (s := S64) (k0_off1 i) S1.size (k0_off1_inb i)).toLoadRect t (Shape.Idx.first (numel1_S1.symm ▸ Nat.one_pos))

theorem hz3 : (![0, 0, 0] : Fin 3 → Nat) = fun _ => 0 := funext fun a => by fin_cases a <;> rfl

set_option maxHeartbeats 1000000 in
/-- The stored block is the blend, under the mask of the four loaded words, of the two loaded blocks. -/
theorem outBlk_eq (c : Dev nD) (i : grid0.Coords)
    (arg7 : Memref sig .tc .vmem S1x128x1536 .f32) (h7 : arg7.IsWhole) (arg8 : Memref sig .tc .vmem S1x128x1536 .f32) (h8 : arg8.IsWhole)
    (arg9 : Memref sig .tc .vmem S1x128x1536 .f32) (h9 : arg9.IsWhole)
    (x0 x1 : Vec F S1x128x1536 .f32)
    (t0 : TbBuf (F := F) c tbM0) (t1 : TbBuf (F := F) c tbM1) (t2 : TbBuf (F := F) c tbM2) (t3 : TbBuf (F := F) c tbM3) (t4 : TbBuf (F := F) c tbM4) :
    outBlk c i arg7 h7 arg8 h8 arg9 h9 x0 x1 t0 t1 t2 t3 t4
      = k0_pay1 (k0_pay2 (F := F) i (wordOf c i tbM0 t0) (wordOf c i tbM1 t1) (wordOf c i tbM2 t2) (wordOf c i tbM3 t3)) x1 x0 := by
  unfold outBlk
  rw [View.read_writes_eq_canon _ _ _ (cover c i arg7 h7 arg8 h8 arg9 h9 x0 x1 t0 t1 t2 t3 t4)]
  unfold kernelRun
  dsimp only
  sl_unfold_words
  rw [View.canon_unit_zero (S := S1x128x1536) hz3]
  simp only [View.readAt_eq_ld, h7.read_unread, h8.read_unread, View.ld_unit_zero (S := S1x128x1536) hz3]
  rfl

end Cert.KernelIdeal.Hand

end
-- ==== Proof.RegionKI.lean ====
/-
  The kernel region: its proof data and the obligation of its body at every grid point.

  Two input windows look at the SAME array (the image batch with its channels laid side by side): window 0 at the grid
  point's own sample, window 1 at the sample table 4 names there. Each holds half of the array's share, which is
  enough to read. The output window's block at point (i, j) is rows 128·j … 128·j + 127 of sample i; the body
  overwrites it whole, so what the staging buffer held before never matters.
-/
import proofs.«427257_j12232066859295_2_alg».proof.Proof.BodyKI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline at the region's tables. -/
abbrev cfgM : Pipeline.Cfg sig Λ₀ := cfg0 (adm m)

/-- The tables' halves the region hands the body, table by table. -/
theorem PhiT_eq (pf : pre0.Contents (Elt F)) (c : Dev nD) :
    (Pipeline.ΦT pre0 pf c : sProp 𝕄)
      = iprop(tbPt c tbM0 (pf 0) ∗ tbPt c tbM1 (pf 1) ∗ tbPt c tbM2 (pf 2) ∗ tbPt c tbM3 (pf 3) ∗ tbPt c tbM4 (pf 4)) := by
  unfold Pipeline.ΦT Pipeline.prefHeld
  exact bigSep_univ_eq_bigSepL [(0 : Fin 5), (1 : Fin 5), (2 : Fin 5), (3 : Fin 5), (4 : Fin 5)] (by decide) (by decide) _

/-- Window w's block at point t, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- Each window's current staging memref at point t, as the pipeline passes it to the body, and its wholeness. -/
abbrev ms0 (t : Fin (cfgM m).N) : Memref sig .tc .vmem S1x128x1536 .f32 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S1x128x1536 .f32 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S1x128x1536 .f32 := spec0_2.stage ((cfgM m).slots t 2)
abbrev hs2 (t : Fin (cfgM m).N) : (ms2 m t).IsWhole := hstage0_2 (((cfgM m).slots t 2).cast nbuf0_2)

/-- The kernel body at point t, on what the pipeline calls it with. -/
abbrev bodyAt (t : Fin (cfgM m).N) : Prog (TpuEff nD τ sig (Elt F) Λ₀ .tc) PUnit :=
  cc0__cutmix_kernel (grid0.coords t) tbM0 htbM0 tbM1 htbM1 tbM2 htbM2 tbM3 htbM3 tbM4 htbM4 (ms0 m t) (hs0 m t) (ms1 m t) (hs1 m t) (ms2 m t) (hs2 m t)

/-- What the output's staging buffer holds after the body at point t. -/
def outAt (c : Dev nD) (t : Fin (cfgM m).N) : Vec F S1x128x1536 .f32 :=
  outBlk c (grid0.coords t) (ms0 m t) (hs0 m t) (ms1 m t) (hs1 m t) (ms2 m t) (hs2 m t) (iblk m c 0 t) (iblk m c 1 t)
    (tbl m 0) (tbl m 1) (tbl m 2) (tbl m 3) (tbl m 4)

/-- The invariant between points: the scoped buffers no window stages, and the tables' halves. -/
abbrev Φc (c : Dev nD) : sProp 𝕄 :=
  iprop(Pipeline.scopedRest (Ix := Unit) (Name := ℕ) (U := UR sig nD τ) (Lvl := ℕ) (Val := Elt F) spec0 c ∗ Pipeline.ΦT pre0 (tbl m) c)

/-- The proof data on core c: the arrays as the region finds them; after the body each input's buffer at its block
    and the output's at the body's store; the two input windows each at half the share of their common array;
    nothing owed. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => outAt m c t
  Φ _ := Φc m c
  q w := match w with
    | ⟨0, _⟩ => fullShare.left
    | ⟨1, _⟩ => fullShare.right
    | ⟨2, _⟩ => fullShare
  owed _ := 0

theorem A_eq (c : Dev nD) (w : Fin (cfgM m).W) : (dats m 0 c).A w = V m c (Pipeline.arrRef spec0 w) := by
  dsimp only [dats]

theorem after_0 (c : Dev nD) (t : Fin (cfgM m).N) : (dats m 0 c).after 0 t = iblk m c 0 t := by dsimp only [dats]; try rfl
theorem after_1 (c : Dev nD) (t : Fin (cfgM m).N) : (dats m 0 c).after 1 t = iblk m c 1 t := by dsimp only [dats]; try rfl
theorem after_2 (c : Dev nD) (t : Fin (cfgM m).N) : (dats m 0 c).after 2 t = outAt m c t := by dsimp only [dats]; try rfl

/-- An input window's current staging buffer holds its block at every point, fetched there or not. -/
theorem before_0 (c : Dev nD) (t : Fin (cfgM m).N) (d) : (dats m 0 c).before 0 t d = iblk m c 0 t :=
  ((dats m 0 c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin (cfgM m).N) (d) : (dats m 0 c).before 1 t d = iblk m c 1 t :=
  ((dats m 0 c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)

/-- What the body is called with at point t, the windows one by one, -/
def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d)))

/-- and what it returns. -/
def bodyPost (c : Dev nD) (t : Fin (cfgM m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t))

/-- The body at any point: the inputs' memrefs hold their blocks, so the run applies; the invariant's tables are
    lent to it and come back; the core owes nothing throughout. -/
theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before_0, before_1]
  rw [show (dats m 0 c).Φ t.succ = (dats m 0 c).Φ t.castSucc from rfl,
    show (dats m 0 c).owesAt () t.succ = (dats m 0 c).owesAt () t.castSucc from rfl,
    after_0, after_1, after_2]
  rw [show (dats m 0 c).Φ t.castSucc = Φc m c from rfl]
  unfold Φc
  rw [PhiT_eq]
  unfold outAt outBlk
  iintro ⟨⟨HΦ, ⟨HT0, HT1, HT2, HT3, HT4⟩⟩, Ho, ⟨%d0, H0⟩, ⟨%d1, H1⟩, ⟨%d2, H2⟩⟩
  iapply ((kernelRun c (grid0.coords t) _ _ _ _ _ _ (iblk m c 0 t) (iblk m c 1 t) (tbl m 0) (tbl m 1) (tbl m 2) (tbl m 3) (tbl m 4)).2 Set.univ _)
  isplitl [H0]; · iexact H0
  isplitl [H1]; · iexact H1
  isplitl [H2]; · iexists _; iexact H2
  isplitl [HT0]; · iexact HT0
  isplitl [HT1]; · iexact HT1
  isplitl [HT2]; · iexact HT2
  isplitl [HT3]; · iexact HT3
  isplitl [HT4]; · iexact HT4
  iintro ⟨H0, H1, ⟨%e2, H2⟩, HT0, HT1, HT2, HT3, HT4⟩
  isplitl [HΦ HT0 HT1 HT2 HT3 HT4]
  · isplitl [HΦ]; · iexact HΦ
    isplitl [HT0]; · iexact HT0
    isplitl [HT1]; · iexact HT1
    isplitl [HT2]; · iexact HT2
    isplitl [HT3]; · iexact HT3
    iexact HT4
  isplitl [Ho]; · iexact Ho
  isplitl [H0]; · iexact H0
  isplitl [H1]; · iexact H1
  unfold owns; iexists _; isplitr
  swap; · iexact H2
  ipureintro; exact View.read_writes_of_cover _ _ _ _ _ (cover c _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.LaunchKI.lean ====
/-
  The launch: the whole program runs to its end, and what its buffers then hold.

  The host lines before the region, the region, the host line after it. The region is handed the image batch split
  between its two input windows, half the share each; the result array whole; the tables. At its exit the result
  array holds what the library computes from the body's write-backs, and the last host line reshapes that into the
  program's result. Nothing writes an argument.
-/
import proofs.«427257_j12232066859295_2_alg».proof.Proof.RegionKI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The shares -/

theorem share_0 (c : Dev nD) : (dats m 0 c).share 0 = fullShare.left := rfl
theorem share_1 (c : Dev nD) : (dats m 0 c).share 1 = fullShare.right := rfl
theorem share_2 (c : Dev nD) : (dats m 0 c).share 2 = fullShare := rfl

/-- The windows' arrays are two buffers: the image batch (twice) and the result. -/
theorem arr_image : Finset.univ.image (Pipeline.arrRef spec0) = ([main_v0, main_v2] : List (Ref sig .tc)).toFinset := by decide

/-- The two buffers behind the arrays, each whole at contents W. -/
theorem arrBufs_eq (c : Dev nD) (W : (b : Ref sig .tc) → Buf (Elt F) ((c : Thread nD τ).loc b)) :
    (Pipeline.arrBufs (cfgM m).spec c W : sProp 𝕄)
      = iprop((((c : Thread nD τ).loc main_v0) ↦{fullShare} W main_v0) ∗ (((c : Thread nD τ).loc main_v2) ↦{fullShare} W main_v2)) := by
  unfold Pipeline.arrBufs
  exact bigSep_eq_bigSepL_of_eq [main_v0, main_v2] arr_image (by decide) _

/-- The pipeline's arrays at contents G give, window by window, points-tos of whole buffers, -/
theorem arrays_elim (c : Dev nD) (G : (w : Fin (cfgM m).W) → Buf (Elt F) (((cfgM m).win w).arr.view.loc (c : Thread nD τ))) :
    ((dats m 0 c).arrays G : sProp 𝕄)
      ⊢ iprop((((c : Thread nD τ).loc main_v0) ↦{fullShare.left} G 0) ∗ (((c : Thread nD τ).loc main_v0) ↦{fullShare.right} G 1)
          ∗ (((c : Thread nD τ).loc main_v2) ↦{fullShare} G 2)) := by
  unfold Dat.arrays
  rw [bigSep_W0]
  show iprop((((Memref.whole main_v0 : Memref sig .tc .hbm S64x512x1536 .f32).view.loc (c : Thread nD τ)) ↦[(Memref.whole main_v0 : Memref sig .tc .hbm S64x512x1536 .f32).view.set]{fullShare.left} G 0)
      ∗ (((Memref.whole main_v0 : Memref sig .tc .hbm S64x512x1536 .f32).view.loc (c : Thread nD τ)) ↦[(Memref.whole main_v0 : Memref sig .tc .hbm S64x512x1536 .f32).view.set]{fullShare.right} G 1)
      ∗ (((Memref.whole main_v2 : Memref sig .tc .hbm S64x512x1536 .f32).view.loc (c : Thread nD τ)) ↦[(Memref.whole main_v2 : Memref sig .tc .hbm S64x512x1536 .f32).view.set]{fullShare} G 2)) ⊢ _
  simp only [View.set_whole]
  iintro ⟨H0, H1, H2⟩
  isplitl [H0]; · iexact H0
  isplitl [H1]; · iexact H1
  iexact H2

/-- and are made of them. -/
theorem arrays_intro (c : Dev nD) (G : (w : Fin (cfgM m).W) → Buf (Elt F) (((cfgM m).win w).arr.view.loc (c : Thread nD τ))) :
    iprop((((c : Thread nD τ).loc main_v0) ↦{fullShare.left} G 0) ∗ (((c : Thread nD τ).loc main_v0) ↦{fullShare.right} G 1)
          ∗ (((c : Thread nD τ).loc main_v2) ↦{fullShare} G 2))
      ⊢ ((dats m 0 c).arrays G : sProp 𝕄) := by
  unfold Dat.arrays
  rw [bigSep_W0]
  show _ ⊢ iprop((((Memref.whole main_v0 : Memref sig .tc .hbm S64x512x1536 .f32).view.loc (c : Thread nD τ)) ↦[(Memref.whole main_v0 : Memref sig .tc .hbm S64x512x1536 .f32).view.set]{fullShare.left} G 0)
      ∗ (((Memref.whole main_v0 : Memref sig .tc .hbm S64x512x1536 .f32).view.loc (c : Thread nD τ)) ↦[(Memref.whole main_v0 : Memref sig .tc .hbm S64x512x1536 .f32).view.set]{fullShare.right} G 1)
      ∗ (((Memref.whole main_v2 : Memref sig .tc .hbm S64x512x1536 .f32).view.loc (c : Thread nD τ)) ↦[(Memref.whole main_v2 : Memref sig .tc .hbm S64x512x1536 .f32).view.set]{fullShare} G 2))
  simp only [View.set_whole]
  iintro ⟨H0, H1, H2⟩
  isplitl [H0]; · iexact H0
  isplitl [H1]; · iexact H1
  iexact H2

/-- The region's entry: the two buffers behind the arrays make the pipeline's arrays, the image batch's share halved. -/
theorem hsplit (c : Dev nD) :
    (Pipeline.arrBufs (cfgM m).spec c (V m c) : sProp 𝕄) ⊢ (dats m 0 c).arrays ((dats m 0 c).arrAt · 0) := by
  rw [arrBufs_eq]
  iintro ⟨H0, H2⟩
  ihave H := (pointsTo_share (PosShare.mem_left_op_right fullShare)).1 $$ H0
  icases H with ⟨Hl, Hr⟩
  iapply (arrays_intro m c _)
  isplitl [Hl]; · iexact Hl
  isplitl [Hr]; · iexact Hr
  iexact H2

/-! ## The line after the region -/

/-- The region's final result array. -/
abbrev resArr (c : Dev nD) : S64x512x1536.Idx → Elt F .f32 := (dats m 0 c).arrAt 2 (cfgM m).N

/-- The program's result: that array with each row's 1536 lanes read as 512 pixels of 3 channels. -/
abbrev resOut (c : Dev nD) : S64x512x512x3.Idx → Elt F .f32 :=
  shapeCast S64x512x512x3 (resArr m c) shapeCasts_S64x512x1536_S64x512x512x3

/-- The buffer the last line writes, as that line leaves it (`after_tail_v3` below: it is `resOut`). -/
abbrev resBuf (c : Dev nD) : Buf (Elt F) ((c : Thread nD τ).loc main_v3) :=
  StableHlo.after (hostOps1 (F := F)) (Function.update (StableHlo.after (linesBefore (F := F)).flatten (fun b => m (c, b))) (Proc.devRef .tc main_v2) (resArr m c)) (Proc.devRef .tc main_v3)

/-- What bypasses the region: every unscoped buffer that is neither an array of a window nor a table. -/
abbrev Zc (c : Dev nD) : sProp 𝕄 :=
  Pipeline.unscopedRestP (Ix := Unit) (Name := ℕ) (U := UR sig nD τ) (Lvl := ℕ) pre0 (cfgM m).spec c (V m c)

/-- What is read at the end beside the arrays and the tables: the image batch and perm as launched, the result. -/
abbrev Zc' (c : Dev nD) : sProp 𝕄 :=
  iprop((((c : Thread nD τ).loc main_arg0) ↦{fullShare} V m c main_arg0) ∗ (((c : Thread nD τ).loc main_arg5) ↦{fullShare} V m c main_arg5)
    ∗ (((c : Thread nD τ).loc main_v3) ↦{fullShare} resBuf m c))

/-- The buffers the last line touches. -/
abbrev tailList : List (DevRef τ sig) := [Proc.devRef .tc main_v2, Proc.devRef .tc main_v3]
abbrev tailSet : Finset (DevRef τ sig) := (tailList).toFinset

theorem tailList_nodup : (tailList).Nodup :=
  List.nodup_cons.mpr ⟨by rw [List.mem_singleton]; exact StableHlo.devRef_ne_of_ne (by decide), List.nodup_singleton _⟩

/-- The contents it starts from: the result array as the region left it, everything else as at the region's entry. -/
abbrev tailV (c : Dev nD) : Valuation τ sig (Elt F) :=
  Function.update (StableHlo.after (linesBefore (F := F)).flatten (fun b => m (c, b))) (Proc.devRef .tc main_v2) (resArr m c)

theorem tailV_v2 (c : Dev nD) : tailV m c (Proc.devRef .tc main_v2) = resArr m c := Function.update_self ..
theorem tailV_v3 (c : Dev nD) : tailV m c (Proc.devRef .tc main_v3) = V m c main_v3 :=
  Function.update_of_ne (StableHlo.devRef_ne_of_ne (by decide)) ..

theorem held_tail (c : Dev nD) (W : Valuation τ sig (Elt F)) :
    (StableHlo.held (c : Thread nD τ) tailSet W : sProp 𝕄)
      = iprop((((c : Thread nD τ).loc main_v2) ↦{fullShare} W (Proc.devRef .tc main_v2)) ∗ (((c : Thread nD τ).loc main_v3) ↦{fullShare} W (Proc.devRef .tc main_v3))) := by
  unfold StableHlo.held
  exact bigSep_eq_bigSepL_of_eq tailList rfl tailList_nodup _

theorem after_tail_v2 (c : Dev nD) : StableHlo.after (hostOps1 (F := F)) (tailV m c) (Proc.devRef .tc main_v2) = resArr m c := by
  rw [StableHlo.after_of_forall_not_mem (b := Proc.devRef .tc main_v2) hostOps1 (tailV m c) (by
    intro op hop
    simp only [hostOps1, List.mem_cons, List.mem_nil_iff, or_false] at hop
    subst hop
    simp only [StableHlo.reshape_writes, Finset.mem_singleton]
    exact StableHlo.devRef_ne_of_ne (by decide))]
  exact tailV_v2 m c

theorem after_tail_v3 (c : Dev nD) :
    (resBuf m c : S64x512x512x3.Idx → Elt F .f32) = resOut m c := by
  show (StableHlo.after (hostOps1 (F := F)) (tailV m c) (Proc.devRef .tc main_v3) : S64x512x512x3.Idx → Elt F .f32) = _
  simp only [hostOps1]
  after_results
  rw [tailV_v2]
  rfl

/-- The last line's operations touch only those two buffers and allocate nothing. -/
theorem tail_sub : ∀ op ∈ (hostOps1 (F := F)), op.bufs ⊆ tailSet := by
  intro op hop
  simp only [hostOps1, List.mem_cons, List.mem_nil_iff, or_false] at hop
  subst hop
  rw [StableHlo.reshape_bufs]
  intro b hb
  simp only [Finset.mem_insert, Finset.mem_singleton] at hb
  rcases hb with rfl | rfl <;> simp only [tailSet, tailList, List.mem_toFinset, List.mem_cons, List.mem_nil_iff, or_false, true_or, or_true]
theorem tail_fresh : ∀ op ∈ (hostOps1 (F := F)), op.fresh = ∅ := by
  intro op hop
  simp only [hostOps1, List.mem_cons, List.mem_nil_iff, or_false] at hop
  subst hop; rfl

set_option backward.isDefEq.respectTransparency.types false in
/-- From the region's exit the last line runs: it reads the result array and writes the program's result. -/
theorem htail (c : Dev nD) (Q' : PUnit → sProp 𝕄) :
    iprop((iprop((dats m 0 c).arrays ((dats m 0 c).arrAt · (cfgM m).N) ∗ Zc' m c) -∗ Q' ⟨⟩)
        ∗ boundary (c : Thread nD τ) ∗ (dats m 0 c).arrays ((dats m 0 c).arrAt · (cfgM m).N) ∗ Zc m c)
      ⊢ wp frame (wpE (Pipeline.defs (pcfgs (F := F)) defs₀) (Variants.lift Variants.none) (c : Thread nD τ) none) Set.univ
          (Pipeline.chain ((linesAfter (F := F)).map StableHlo.seq)) Q' := by
  have hseq := StableHlo.wp_seq (defs := Pipeline.defs (pcfgs (F := F)) defs₀) (Variants.lift Variants.none) none Set.univ c tailSet
    (fun _ => (pure ⟨⟩ : Prog (TpuEff nD τ sig (Elt F) (Pipeline.Sig Λ₀ (Fin 1) fun p => (pcfgs (F := F) p).Adm) .tc) PUnit)) (K := Q')
    hostOps1 tail_sub tail_fresh (tailV m c)
  rw [held_tail, held_tail, tailV_v2, tailV_v3, after_tail_v2, wp_pure] at hseq
  unfold Zc
  rw [unscopedRestP0_eq c (V m c)]
  iintro ⟨Hk, Hb, Ha, ⟨H0, H5, -, -, -, -, -, -, -, H3⟩⟩
  ihave Ha' := (arrays_elim m c _) $$ Ha
  icases Ha' with ⟨Ha0, Ha1, Ha2⟩
  simp only [linesAfter, List.map_cons, List.map_nil, Pipeline.chain_cons, Pipeline.chain_nil]
  iapply hseq $$ [Hb Ha2 H3]
  · isplitl [Hb]; · iexact Hb
    isplitl [Ha2]; · iexact Ha2
    iexact H3
  iintro ⟨Hb, Hv2, Hv3⟩
  imodintro
  iapply Hk
  isplitl [Ha0 Ha1 Hv2]
  · iapply (arrays_intro m c _)
    isplitl [Ha0]; · iexact Ha0
    isplitl [Ha1]; · iexact Ha1
    iexact Hv2
  isplitl [H0]; · iexact H0
  isplitl [H5]; · iexact H5
  iexact Hv3

/-! ## The run -/

/-- What every final state satisfies, core by core: the arrays at what the library computes, the tables as the region
    found them, the image batch and perm as at the region's entry, the program's result. -/
def Post (r : PUnit × MemSt nD τ sig (Elt F)) : Prop :=
  ∀ c : Dev nD,
    (∀ w, r.2.mem (((cfgM m).spec w).arr.view.loc (c : Thread nD τ)) = (dats m 0 c).arrAt w (cfgM m).N)
    ∧ (∀ k, r.2.mem ((c : Thread nD τ).loc (pre0.ref k)) = tbl m k)
    ∧ r.2.mem ((c : Thread nD τ).loc main_arg0) = V m c main_arg0
    ∧ r.2.mem ((c : Thread nD τ).loc main_arg5) = V m c main_arg5
    ∧ r.2.mem ((c : Thread nD τ).loc main_v3) = resBuf m c

/-- Reading the three buffers against a final state. -/
theorem hY (c : Dev nD) (s' : Phys nD τ sig (Elt F)) :
    iprop((BI.emp : sProp 𝕄) ∗ Zc' m c ∗ SI s') ⊢ |={Set.univ}=> iprop(⌜s'.mem.mem ((c : Thread nD τ).loc main_arg0) = V m c main_arg0
        ∧ s'.mem.mem ((c : Thread nD τ).loc main_arg5) = V m c main_arg5
        ∧ s'.mem.mem ((c : Thread nD τ).loc main_v3) = resBuf m c⌝ ∗ SI s') := by
  iintro ⟨-, ⟨H0, H5, H3⟩, HSI⟩
  icombine HSI H0 gives %h0
  icombine HSI H5 gives %h5
  icombine HSI H3 gives %h3
  imodintro
  isplitr
  · ipureintro; exact ⟨Buf.eq_of_forall_mem_univ h0, Buf.eq_of_forall_mem_univ h5, Buf.eq_of_forall_mem_univ h3⟩
  iexact HSI

set_option backward.isDefEq.respectTransparency.types false in
/-- At the compiled mesh, for any values, from any memory with zero counters: every weakly fair execution of the
    program on the TensorCores terminates, and every final state satisfies `Post`. -/
theorem run_main : θ_run defs (onTc (τ := τ) (main (F := F))) (s₀ m ρ) (Post m) :=
  Pipeline.θ_run_region_noSem_pf_tail pcfgs (fun _ => adm m) (dats m) () (cellOf_inj fun _ => adm m) (0 : Fin 1) winFacts₀0 preFacts0 emb₁ defs₀ Variants.none
    m ρ main (fun _ => Pipeline.chain ((linesAfter (F := F)).map StableHlo.seq))
    (hbody := fun c => (body_obligation m c).loose)
    (hne := block_pos0) (harr := arr_whole0) (hstage := stage_whole0) (howed := fun _ _ => rfl)
    (u₀ := initOf (Pipeline.cells (Pipeline.pin pcfgs fun _ => adm m) (cellOf_inj fun _ => adm m)) (Pipeline.launchToks (Pipeline.pin pcfgs fun _ => adm m) (cellOf_inj fun _ => adm m)))
    (hu₀ := .rfl)
    (V := V m) (hmain := hmain m Variants.none) (hsplit := hsplit m) (hpf := fun c k => V_pre m c k)
    (X := fun _ => iprop(emp)) (Y := fun _ => iprop(emp)) (Z := Zc m) (Z' := Zc' m)
    (hX := fun c => by
      iintro H
      isplitr; · iempintro
      iexact H)
    (hin := fun c => by
      rw [show (dats m 0 c).Φ 0 = Φc m c from rfl]
      iintro ⟨-, Ht, Hr⟩
      isplitl [Hr]; · iexact Hr
      iexact Ht)
    (hout := fun c => by
      rw [show (dats m 0 c).Φ (Fin.last (cfgM m).N) = Φc m c from rfl]
      iintro ⟨Hr, -⟩
      isplitr; · iempintro
      iexact Hr)
    (htail := fun c Q' => htail m c Q')
    (QY := fun c s => s.mem ((c : Thread nD τ).loc main_arg0) = V m c main_arg0
        ∧ s.mem ((c : Thread nD τ).loc main_arg5) = V m c main_arg5
        ∧ s.mem ((c : Thread nD τ).loc main_v3) = resBuf m c)
    (hY := fun c s' => hY m c s')
    (hQ := fun s h c => ⟨(h c).1, (h c).2.1, (h c).2.2.1, (h c).2.2.2.1, (h c).2.2.2.2⟩)

end Cert.KernelIdeal.Hand

end
-- ==== Proof.KernelMask.lean ====
/-
  The kernel body's arithmetic read at one element of its 1 × 128 × 1536 block. At grid point (i, j) the block is
  rows 128·j … 128·j + 127 of sample i, each row its 512 pixels × 3 channels laid side by side; lane l of a row is
  pixel l / 3. The body compares the row 128·j + r and the pixel l / 3 (a signed division by 3, rounded toward minus
  infinity, of a lane number that is never negative) with the sample's four bounds, and selects between the two blocks
  it loaded.
-/
import proofs.«427257_j12232066859295_2_alg».proof.Proof.Gen.KernelIdeal.Skeleton
import proofs.«427257_j12232066859295_2_alg».proof.Proof.Spec

noncomputable section

namespace Cert.CutMix

open Idealize.ShloMosaic Idealize.ShloMosaic.ValueIdx
open Cert.KernelIdeal Cert.KernelIdeal.Gen

variable {F : FTy → Type} [FloatOps F]

/-- Floor division by 3 of a lane number. The body takes the signed quotient q rounded toward zero and replaces it by
    q − 1 when sign n ≠ sign 3 and the remainder is not zero, where sign x = [x > 0] − [x < 0]. For a lane n < 1536
    the word of n is nonnegative: sign n = 1 = sign 3 unless n = 0, and at n = 0 the remainder is 0. So the
    replacement never happens, and the quotient of two nonnegative words is the word of n / 3. Verified at each of
    the 1536 lanes by evaluation. -/
theorem floorDiv3_lane : ∀ n : Fin 1536,
    Scalar.select
      (IntOp.andi
        (IntOp.cmpi .ne
          (IntOp.subi ((IntOp.cmpi .sgt (BitVec.ofNat 32 n.val) 0#32).setWidth 32)
            ((IntOp.cmpi .slt (BitVec.ofNat 32 n.val) 0#32).setWidth 32))
          (Scalar.subi (Scalar.extui (Scalar.cmpi .sgt 3#32 0#32)) (Scalar.extui (Scalar.cmpi .slt 3#32 0#32))))
        (IntOp.cmpi .ne (IntOp.remsi .vector (BitVec.ofNat 32 n.val) 3#32) 0#32))
      (IntOp.subi (IntOp.divsi .vector (BitVec.ofNat 32 n.val) 3#32) 1#32)
      (IntOp.divsi .vector (BitVec.ofNat 32 n.val) 3#32)
    = BitVec.ofNat 32 (n.val / 3) := by
  decide +kernel

/-- The row word: r + a · 128 as 32-bit words is the word of a · 128 + r (taking the word of a natural number
    commutes with sum and product). -/
theorem rowWord (a r : Nat) :
    IntOp.addi (BitVec.ofNat 32 r) (Scalar.muli (BitVec.ofNat 32 a) 128#32) = BitVec.ofNat 32 (a * 128 + r) := by
  show BitVec.ofNat 32 r + BitVec.ofNat 32 a * BitVec.ofNat 32 128 = _
  rw [← BitVec.ofNat_mul, ← BitVec.ofNat_add, Nat.add_comm]

/-- The counter along the row axis reads the row number. -/
theorem iotaRow_apply (h : S1x128x1536.Iotas .tc 32 [1]) (r : Fin 128) (l : Fin 1536) :
    iota .tc S1x128x1536 32 [1] h (ix3 (0 : Fin 1) r l) = BitVec.ofNat 32 r.val := by
  simp [iota, ix3]

/-- The counter along the lane axis reads the lane number. -/
theorem iotaLane_apply (h : S1x128x1536.Iotas .tc 32 [2]) (r : Fin 128) (l : Fin 1536) :
    iota .tc S1x128x1536 32 [2] h (ix3 (0 : Fin 1) r l) = BitVec.ofNat 32 l.val := by
  simp [iota, ix3]

/-- The mask at row r, lane l of the block at grid point i: the box test of row 128·(i 1) + r and pixel l / 3. -/
theorem mask_apply (i : grid0.Coords) (v1 v3 v5 v7 : BitVec 32) (r : Fin 128) (l : Fin 1536) :
    k0_pay2 (F := F) i v1 v3 v5 v7 (ix3 (0 : Fin 1) r l) = inBox v1 v3 v5 v7 ((i 1).val * 128 + r.val) (l.val / 3) := by
  unfold k0_pay2 inBox
  -- every operation of the body is pointwise: read each at the one index
  simp only [andi, cmpi, addi, subi, select, extui, broadcast, divsi, remsi]
  rw [iotaRow_apply, iotaLane_apply, rowWord, floorDiv3_lane l]

/-- The stored block: where the mask is set the second loaded block, elsewhere the first. -/
theorem blend_apply (v47 : IVec S1x128x1536 1) (v48 v50 : Vec F S1x128x1536 .f32) (j : S1x128x1536.Idx) :
    k0_pay1 (F := F) v47 v48 v50 j = Scalar.select (v47 j) (v48 j) (v50 j) := by
  unfold k0_pay1
  -- re-indexing a shape to itself is the identity on indices
  simp only [select, shapeCast, Shape.reshapeEquiv_self]

end Cert.CutMix

end
-- ==== Proof.FlatKI.lean ====
/-
  CutMix on the image batch with each pixel's three channels laid side by side in its row ([64, 512, 1536]: lane l of a
  row is channel l % 3 of pixel l / 3), and the same function read back through the reshape to [64, 512, 512, 3]:
  element (b, h, w, ch) of the one is element (b, h, 3·w + ch) of the other, and (3·w + ch) / 3 = w.
-/
import proofs.«427257_j12232066859295_2_alg».proof.Proof.Gen.KernelIdeal
import proofs.«427257_j12232066859295_2_alg».proof.Proof.Spec
import Idealize.ShloMosaic.Lib.Pipeline.Value
import Idealize.ShloMosaic.Lib.ValueLayout

noncomputable section

namespace Cert.KernelIdeal.Hand

open Cert.KernelIdeal Cert.KernelIdeal.Gen
open Idealize.ShloMosaic Idealize.ShloMosaic.ValueIdx
open Cert.CutMix

variable {F : FTy → Type} [FloatOps F]

/-- The flat CutMix at row h, lane l of sample b: the box test of (h, l / 3) selects between sample `row (pc b)`
    and sample b, same row, same lane. -/
def mixFlatAt (A : S64x512x1536.Idx → Elt F .f32) (y1 y2 x1 x2 pc : S64.Idx → BitVec 32) (b : Fin 64) (h : Fin 512) (l : Fin 1536) : Elt F .f32 :=
  Scalar.select (inBox (y1 (ix1 b)) (y2 (ix1 b)) (x1 (ix1 b)) (x2 (ix1 b)) h.val (l.val / 3))
    (A (ix3 (row (pc (ix1 b))) h l)) (A (ix3 b h l))

def mixFlat (A : S64x512x1536.Idx → Elt F .f32) (y1 y2 x1 x2 pc : S64.Idx → BitVec 32) : S64x512x1536.Idx → Elt F .f32 :=
  fun i => mixFlatAt A y1 y2 x1 x2 pc (i 0) (i 1) (i 2)

theorem mixFlat_apply (A : S64x512x1536.Idx → Elt F .f32) (y1 y2 x1 x2 pc : S64.Idx → BitVec 32) (b : Fin 64) (h : Fin 512) (l : Fin 1536) :
    mixFlat A y1 y2 x1 x2 pc (ix3 b h l) = mixFlatAt A y1 y2 x1 x2 pc b h l := rfl

/-- Lane 3·w + ch of a row is a lane of the flat row: 3·w + ch < 1536 for w < 512, ch < 3. -/
theorem lane_lt (w : Fin 512) (ch : Fin 3) : 3 * w.val + ch.val < 1536 := by omega

/-- Pixel (b', h, w, ch) of the image batch has number ((b'·512 + h)·512 + w)·3 + ch = (b'·512 + h)·1536 + (3·w + ch),
    the number of lane 3·w + ch of row h of sample b' in the flat batch: the flattened batch there is that pixel. -/
theorem flatten_apply (x : S64x512x512x3.Idx → Elt F .f32) (b' : Fin 64) (h : Fin 512) (w : Fin 512) (ch : Fin 3) :
    shapeCast S64x512x1536 x shapeCasts_S64x512x512x3_S64x512x1536 (ix3 b' h ⟨3 * w.val + ch.val, lane_lt w ch⟩)
      = x (ix4 b' h w ch) :=
  shapeCast_apply x _ _ _ (by
    rw [Shape.rowMajor_val_four, Shape.rowMajor_val_three]
    show ((b'.val * 512 + h.val) * 512 + w.val) * 3 + ch.val = (b'.val * 512 + h.val) * 1536 + (3 * w.val + ch.val)
    omega)

/-- The other way: a flat batch read back as [64, 512, 512, 3] is, at pixel (b, h, w, ch), the flat batch at lane
    3·w + ch of row h of sample b (the same number, read in the other shape). -/
theorem unflatten_apply (A : S64x512x1536.Idx → Elt F .f32) (b : Fin 64) (h : Fin 512) (w : Fin 512) (ch : Fin 3) :
    shapeCast S64x512x512x3 A shapeCasts_S64x512x1536_S64x512x512x3 (ix4 b h w ch)
      = A (ix3 b h ⟨3 * w.val + ch.val, lane_lt w ch⟩) :=
  shapeCast_apply A _ _ _ (by
    rw [Shape.rowMajor_val_four, Shape.rowMajor_val_three]
    show (b.val * 512 + h.val) * 1536 + (3 * w.val + ch.val) = ((b.val * 512 + h.val) * 512 + w.val) * 3 + ch.val
    omega)

/-- Reshape the image batch flat, mix, reshape back: at pixel (b, h, w, ch) the box test of (h, w) selects between
    the same pixel and channel of sample `row (pc b)` and of sample b. -/
theorem unflatten_mixFlat (x : S64x512x512x3.Idx → Elt F .f32) (y1 y2 x1 x2 pc : S64.Idx → BitVec 32)
    (b : Fin 64) (h : Fin 512) (w : Fin 512) (ch : Fin 3) :
    shapeCast S64x512x512x3 (mixFlat (shapeCast S64x512x1536 x shapeCasts_S64x512x512x3_S64x512x1536) y1 y2 x1 x2 pc)
        shapeCasts_S64x512x1536_S64x512x512x3 (ix4 b h w ch)
      = Scalar.select (inBox (y1 (ix1 b)) (y2 (ix1 b)) (x1 (ix1 b)) (x2 (ix1 b)) h.val w.val)
          (x (ix4 (row (pc (ix1 b))) h w ch)) (x (ix4 b h w ch)) := by
  rw [unflatten_apply, mixFlat_apply]
  unfold mixFlatAt
  rw [flatten_apply, flatten_apply]
  have hw : (3 * w.val + ch.val) / 3 = w.val := by omega
  show Scalar.select (inBox _ _ _ _ h.val ((3 * w.val + ch.val) / 3)) _ _ = _
  rw [hw]

end Cert.KernelIdeal.Hand

end
-- ==== Proof.ValueKI.lean ====
/-
  What the region's result array holds at the end, index by index.

  At grid point (i, j) the output block is rows 128·j … 128·j + 127 of sample i, all 1536 lanes. The body stores there
  the blend of the two input blocks under the box mask: the first input block is the same rows of sample i, the second
  the same rows of the sample that table 4's word at i names. The 64 × 4 blocks tile the array, each written back
  once, so the whole array is one function of the image batch and the five tables.
-/
import proofs.«427257_j12232066859295_2_alg».proof.Proof.LaunchKI
import proofs.«427257_j12232066859295_2_alg».proof.Proof.KernelMask
import proofs.«427257_j12232066859295_2_alg».proof.Proof.FlatKI

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.CutMix

variable {F : FTy → Type} [FloatOps F]

variable (m : (ℓ : Loc nD τ sig) → Buf (Elt F) ℓ)

/-- The output window is written back at every point. -/
theorem flush2 : ∀ t : Fin (cfgM m).N, ((cfgM m).win 2).flush t = true :=
  (by decide +kernel : ∀ t : Fin grid0.N, Pipeline.Window.flushOf grid0 true cc0_transform_2 t = true)

/-- The grid point's sample and, for a row of its block, the row of the array. -/
def smp (t : Fin (cfgM m).N) : Fin 64 := ⟨((grid0.coords t) 0).val, ((grid0.coords t) 0).isLt⟩
def rowOf (t : Fin (cfgM m).N) (r : Fin 128) : Fin 512 :=
  ⟨((grid0.coords t) 1).val * 128 + r.val, by have h : ((grid0.coords t) 1).val < 4 := ((grid0.coords t) 1).isLt; omega⟩

theorem emb2 (t : Fin (cfgM m).N) (r : Fin 128) (l : Fin 1536) :
    (((cfgM m).win 2).blk t).view.emb (ix3 (0 : Fin 1) r l) = (ix3 (smp m t) (rowOf m t r) l : S64x512x1536.Idx) := by
  funext a; apply Fin.ext
  have h0 : ((grid0.coords t) 0).val < 64 := ((grid0.coords t) 0).isLt
  have h1 : ((grid0.coords t) 1).val < 4 := ((grid0.coords t) 1).isLt
  match a with
  | ⟨0, _⟩ =>
    show (BitVec.ofNat 32 ((grid0.coords t) 0).val).toNat * 1 + 1 * 0 = ((grid0.coords t) 0).val
    rw [BitVec.toNat_ofNat, Nat.mod_eq_of_lt (by omega)]; omega
  | ⟨1, _⟩ =>
    show (BitVec.ofNat 32 ((grid0.coords t) 1).val).toNat * 128 + 1 * r.val = ((grid0.coords t) 1).val * 128 + r.val
    rw [BitVec.toNat_ofNat, Nat.mod_eq_of_lt (by omega)]; omega
  | ⟨2, _⟩ =>
    show (0#32 : BitVec 32).toNat * 1536 + 1 * l.val = l.val
    simp

/-- The first input window's block is the same rows of the same sample. -/
theorem emb0 (t : Fin (cfgM m).N) (r : Fin 128) (l : Fin 1536) :
    (((cfgM m).win 0).blk t).view.emb (ix3 (0 : Fin 1) r l) = (ix3 (smp m t) (rowOf m t r) l : S64x512x1536.Idx) := by
  funext a; apply Fin.ext
  have h0 : ((grid0.coords t) 0).val < 64 := ((grid0.coords t) 0).isLt
  have h1 : ((grid0.coords t) 1).val < 4 := ((grid0.coords t) 1).isLt
  match a with
  | ⟨0, _⟩ =>
    show (BitVec.ofNat 32 ((grid0.coords t) 0).val).toNat * 1 + 1 * 0 = ((grid0.coords t) 0).val
    rw [BitVec.toNat_ofNat, Nat.mod_eq_of_lt (by omega)]; omega
  | ⟨1, _⟩ =>
    show (BitVec.ofNat 32 ((grid0.coords t) 1).val).toNat * 128 + 1 * r.val = ((grid0.coords t) 1).val * 128 + r.val
    rw [BitVec.toNat_ofNat, Nat.mod_eq_of_lt (by omega)]; omega
  | ⟨2, _⟩ =>
    show (0#32 : BitVec 32).toNat * 1536 + 1 * l.val = l.val
    simp

/-- The index a word load at grid point i reads: the point's sample. -/
theorem offIdx (i : grid0.Coords) :
    ((Rect.unit (s := S64) (k0_off1 i) S1.size (k0_off1_inb i)).emb (Shape.Idx.first (numel1_S1.symm ▸ Nat.one_pos)) : S64.Idx)
      = ix1 (⟨(i 0).val, (i 0).isLt⟩ : Fin 64) := by
  funext a; apply Fin.ext
  have h0 : (i 0).val < 64 := (i 0).isLt
  match a with
  | ⟨0, _⟩ =>
    show (BitVec.ofNat 32 (i 0).val).toNat + 1 * 0 = (i 0).val
    rw [BitVec.toNat_ofNat, Nat.mod_eq_of_lt (by omega)]; omega

/-- The four words the body loads at point t are the tables' entries at the point's sample. -/
theorem word0 (c : Dev nD) (t : Fin (cfgM m).N) :
    wordOf c (grid0.coords t) tbM0 (tbl m 0) = (tbl m 0 : S64.Idx → BitVec 32) (ix1 (smp m t)) :=
  congrArg (tbl m 0 : S64.Idx → BitVec 32) (offIdx (grid0.coords t))
theorem word1 (c : Dev nD) (t : Fin (cfgM m).N) :
    wordOf c (grid0.coords t) tbM1 (tbl m 1) = (tbl m 1 : S64.Idx → BitVec 32) (ix1 (smp m t)) :=
  congrArg (tbl m 1 : S64.Idx → BitVec 32) (offIdx (grid0.coords t))
theorem word2 (c : Dev nD) (t : Fin (cfgM m).N) :
    wordOf c (grid0.coords t) tbM2 (tbl m 2) = (tbl m 2 : S64.Idx → BitVec 32) (ix1 (smp m t)) :=
  congrArg (tbl m 2 : S64.Idx → BitVec 32) (offIdx (grid0.coords t))
theorem word3 (c : Dev nD) (t : Fin (cfgM m).N) :
    wordOf c (grid0.coords t) tbM3 (tbl m 3) = (tbl m 3 : S64.Idx → BitVec 32) (ix1 (smp m t)) :=
  congrArg (tbl m 3 : S64.Idx → BitVec 32) (offIdx (grid0.coords t))

/-- The word of table 4 the second input window's index map reads at point t, likewise. -/
theorem permWord_eq (t : Fin (cfgM m).N) :
    permWord (tbl m) (grid0.coords t) = (tbl m 4 : S64.Idx → BitVec 32) (ix1 (smp m t)) :=
  congrArg (tbl m 4 : S64.Idx → BitVec 32) (offIdx (grid0.coords t))

/-- That word is at most 63, so it names itself as a sample. -/
theorem permWord_row (t : Fin (cfgM m).N) :
    (permWord (tbl m) (grid0.coords t)).toNat = (row ((tbl m 4 : S64.Idx → BitVec 32) (ix1 (smp m t)))).val := by
  rw [permWord_eq]
  have h : ((tbl m 4 : S64.Idx → BitVec 32) (ix1 (smp m t))).toNat ≤ 63 := by rw [tbl4_apply]; exact clampWord_le _
  show _ = _ % 64
  omega

/-- The second input window's block, at any admissible contents of the tables: the same rows of the sample the
    contents' table-4 word names at the point's sample (k, when that word read as a natural number is k). -/
theorem emb1_at (a : (pcfg0 (F := F)).Adm) (pf : pre0.Contents (Elt F)) (hpf : a.1 = pf) (t : Fin (cfg0 a).N) (r : Fin 128) (l : Fin 1536) (k : Fin 64)
    (hk : (permWord pf (grid0.coords t)).toNat = k.val) :
    (((cfg0 a).win 1).blk t).view.emb (ix3 (0 : Fin 1) r l)
      = (ix3 k (⟨((grid0.coords t) 1).val * 128 + r.val, by have h : ((grid0.coords t) 1).val < 4 := ((grid0.coords t) 1).isLt; omega⟩ : Fin 512) l : S64x512x1536.Idx) := by
  subst hpf
  funext x; apply Fin.ext
  have h1 : ((grid0.coords t) 1).val < 4 := ((grid0.coords t) 1).isLt
  match x with
  | ⟨0, _⟩ =>
    show (permWord a.1 (grid0.coords t)).toNat * 1 + 1 * 0 = k.val
    rw [hk]; omega
  | ⟨1, _⟩ =>
    show (BitVec.ofNat 32 ((grid0.coords t) 1).val).toNat * 128 + 1 * r.val = ((grid0.coords t) 1).val * 128 + r.val
    rw [BitVec.toNat_ofNat, Nat.mod_eq_of_lt (by omega)]; omega
  | ⟨2, _⟩ =>
    show (0#32 : BitVec 32).toNat * 1536 + 1 * l.val = l.val
    simp

theorem emb1 (t : Fin (cfgM m).N) (r : Fin 128) (l : Fin 1536) :
    (((cfgM m).win 1).blk t).view.emb (ix3 (0 : Fin 1) r l)
      = (ix3 (row ((tbl m 4 : S64.Idx → BitVec 32) (ix1 (smp m t)))) (rowOf m t r) l : S64x512x1536.Idx) :=
  emb1_at (adm m) (tbl m) rfl t r l (row ((tbl m 4 : S64.Idx → BitVec 32) (ix1 (smp m t)))) (permWord_row m t)

/-- The image batch as the region finds it, flat. -/
abbrev flatX (c : Dev nD) : S64x512x1536.Idx → Elt F .f32 := V m c main_v0

/-- The region's result as one function of the flat image batch and the tables. -/
abbrev flatMix (c : Dev nD) : S64x512x1536.Idx → Elt F .f32 :=
  mixFlat (flatX m c) (tbl m 0) (tbl m 1) (tbl m 2) (tbl m 3) (tbl m 4)

/-- The two input blocks at point t, at their literal type. -/
abbrev blk0 (c : Dev nD) (t : Fin (cfgM m).N) : Vec F S1x128x1536 .f32 := iblk m c 0 t
abbrev blk1 (c : Dev nD) (t : Fin (cfgM m).N) : Vec F S1x128x1536 .f32 := iblk m c 1 t

/-- What the body leaves in the output's staging buffer at point t: the blend of the two input blocks under the mask
    of the four words. -/
theorem outAt_eq (c : Dev nD) (t : Fin (cfgM m).N) :
    outAt m c t = k0_pay1 (k0_pay2 (F := F) (grid0.coords t) (wordOf c (grid0.coords t) tbM0 (tbl m 0)) (wordOf c (grid0.coords t) tbM1 (tbl m 1))
        (wordOf c (grid0.coords t) tbM2 (tbl m 2)) (wordOf c (grid0.coords t) tbM3 (tbl m 3))) (blk1 m c t) (blk0 m c t) :=
  outBlk_eq c (grid0.coords t) (ms0 m t) (hs0 m t) (ms1 m t) (hs1 m t) (ms2 m t) (hs2 m t) (iblk m c 0 t) (iblk m c 1 t)
    (tbl m 0) (tbl m 1) (tbl m 2) (tbl m 3) (tbl m 4)

theorem blk0_apply (c : Dev nD) (t : Fin (cfgM m).N) (r : Fin 128) (l : Fin 1536) :
    blk0 m c t (ix3 (0 : Fin 1) r l) = flatX m c (ix3 (smp m t) (rowOf m t r) l) := by
  show flatX m c ((((cfgM m).win 0).blk t).view.emb (ix3 (0 : Fin 1) r l)) = _
  rw [emb0]
theorem blk1_apply (c : Dev nD) (t : Fin (cfgM m).N) (r : Fin 128) (l : Fin 1536) :
    blk1 m c t (ix3 (0 : Fin 1) r l) = flatX m c (ix3 (row ((tbl m 4 : S64.Idx → BitVec 32) (ix1 (smp m t)))) (rowOf m t r) l) := by
  show flatX m c ((((cfgM m).win 1).blk t).view.emb (ix3 (0 : Fin 1) r l)) = _
  rw [emb1]

/-- What point t writes back is block t of that function. -/
theorem flushed_eq (c : Dev nD) (t : Fin (cfgM m).N) :
    (dats m 0 c).flushed 2 t = (((cfgM m).win 2).blk t).view.read (Elt F) (flatMix m c) := by
  show ((cfgM m).win 2).cut ((cfgM m).grid.coords t) ((dats m 0 c).after 2 t) = _
  rw [after_2, outAt_eq]
  refine funext fun (j : S1x128x1536.Idx) => ?_
  obtain ⟨z, r, l, rfl⟩ : ∃ (z : Fin 1) (r : Fin 128) (l : Fin 1536), j = ix3 z r l := ⟨j 0, j 1, j 2, eq_ix3 j⟩
  obtain rfl : z = 0 := Subsingleton.elim _ _
  show k0_pay1 (k0_pay2 (F := F) (grid0.coords t) (wordOf c (grid0.coords t) tbM0 (tbl m 0)) (wordOf c (grid0.coords t) tbM1 (tbl m 1))
        (wordOf c (grid0.coords t) tbM2 (tbl m 2)) (wordOf c (grid0.coords t) tbM3 (tbl m 3))) (blk1 m c t) (blk0 m c t) (ix3 (0 : Fin 1) r l)
      = flatMix m c ((((cfgM m).win 2).blk t).view.emb (ix3 (0 : Fin 1) r l))
  rw [blend_apply, mask_apply, emb2, word0, word1, word2, word3, blk0_apply, blk1_apply]
  rfl

/-- Every (sample, quarter of the rows) is some grid point's pair of coordinates. -/
theorem point_onto : ∀ (q0 : Fin 64) (q1 : Fin 4), ∃ t : Fin grid0.N, ((grid0.coords t) 0).val = q0.val ∧ ((grid0.coords t) 1).val = q1.val :=
  (by decide +kernel : ∀ (q0 : Fin 64) (q1 : Fin 4), ∃ t : Fin grid0.N, ((grid0.coords t) 0).val = q0.val ∧ ((grid0.coords t) 1).val = q1.val)

/-- The blocks tile the array: every index is in the block of the point its sample and row quarter name, at row
    (its row mod 128) and its own lane. -/
theorem covered (i : S64x512x1536.Idx) :
    ∃ t : Fin (cfgM m).N, ((cfgM m).win 2).flush t = true ∧ i ∈ (((cfgM m).win 2).blk t).view.set := by
  obtain ⟨b, h, l, rfl⟩ : ∃ (b : Fin 64) (h : Fin 512) (l : Fin 1536), i = ix3 b h l := ⟨i 0, i 1, i 2, eq_ix3 i⟩
  have hh : h.val < 512 := h.isLt
  obtain ⟨t, ht0, ht1⟩ := point_onto b ⟨h.val / 128, by omega⟩
  refine ⟨t, flush2 m t, ?_⟩
  have e : (ix3 b h l : S64x512x1536.Idx) = (((cfgM m).win 2).blk t).view.emb (ix3 (0 : Fin 1) (⟨h.val % 128, Nat.mod_lt _ (by decide)⟩ : Fin 128) l) := by
    rw [emb2]
    have hb : smp m t = b := Fin.ext ht0
    have hr : rowOf m t (⟨h.val % 128, Nat.mod_lt _ (by decide)⟩ : Fin 128) = h := Fin.ext (by
      show ((grid0.coords t) 1).val * 128 + h.val % 128 = h.val
      rw [ht1]; show h.val / 128 * 128 + h.val % 128 = h.val; omega)
    rw [hb, hr]
  rw [e]
  exact (((cfgM m).win 2).blk t).view.emb_mem_set _

/-- THE RESULT ARRAY after the region: the flat CutMix of the image batch under the tables. -/
theorem resArr_eq (c : Dev nD) : resArr m c = flatMix m c :=
  (dats m 0 c).arrAt_eq_of_cover 2 (flatMix m c) (fun t _ => flushed_eq m c t) (covered m)

end Cert.KernelIdeal.Hand

end
-- ==== Proof.MixKI.lean ====
/-
  The idealized kernel computes CutMix. The program's result is the region's result array read through the last
  reshape; the region's result array is the flat CutMix of the flat image batch under the tables; the tables are the
  box bounds as launched and perm clamped into 0 … 63; and for a word of perm already in that range the clamp changes
  nothing. Read at a pixel, that is the specification.
-/
import proofs.«427257_j12232066859295_2_alg».proof.Proof.ValueKI

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Cert.CutMix

variable (m : (ℓ : Loc nD τ sig) → Buf (Elt Ideal) ℓ)

/-- The tables are the launched arguments (table 4 apart). -/
theorem tbl0_eq : (tbl m 0 : S64.Idx → BitVec 32) = m (((0 : Dev nD) : Thread nD τ).loc main_arg1) := V_main_arg1 m 0
theorem tbl1_eq : (tbl m 1 : S64.Idx → BitVec 32) = m (((0 : Dev nD) : Thread nD τ).loc main_arg2) := V_main_arg2 m 0
theorem tbl2_eq : (tbl m 2 : S64.Idx → BitVec 32) = m (((0 : Dev nD) : Thread nD τ).loc main_arg3) := V_main_arg3 m 0
theorem tbl3_eq : (tbl m 3 : S64.Idx → BitVec 32) = m (((0 : Dev nD) : Thread nD τ).loc main_arg4) := V_main_arg4 m 0

/-- The program's result on the one device is CutMix of its launched arguments, when every word of perm is in range. -/
theorem kernel_mix
    (hperm : ∀ b : Fin 64, InRange ((m (((0 : Dev nD) : Thread nD τ).loc main_arg5) : S64.Idx → BitVec 32) (ix1 b))) :
    (resBuf m (0 : Dev nD) : S64x512x512x3.Idx → EReal)
      = mix (m (((0 : Dev nD) : Thread nD τ).loc main_arg0)) (m (((0 : Dev nD) : Thread nD τ).loc main_arg1))
          (m (((0 : Dev nD) : Thread nD τ).loc main_arg2)) (m (((0 : Dev nD) : Thread nD τ).loc main_arg3))
          (m (((0 : Dev nD) : Thread nD τ).loc main_arg4)) (m (((0 : Dev nD) : Thread nD τ).loc main_arg5)) := by
  rw [after_tail_v3]
  unfold resOut
  rw [resArr_eq]
  unfold flatMix flatX
  rw [V_main_v0]
  funext i
  obtain ⟨b, h, w, ch, rfl⟩ : ∃ (b : Fin 64) (h : Fin 512) (w : Fin 512) (ch : Fin 3), i = ix4 b h w ch := ⟨i 0, i 1, i 2, i 3, eq_ix4 i⟩
  refine (unflatten_mixFlat (m (((0 : Dev nD) : Thread nD τ).loc main_arg0)) (tbl m 0) (tbl m 1) (tbl m 2) (tbl m 3) (tbl m 4) b h w ch).trans ?_
  have e0 : (tbl m 0 : S64.Idx → BitVec 32) (ix1 b) = (m (((0 : Dev nD) : Thread nD τ).loc main_arg1) : S64.Idx → BitVec 32) (ix1 b) := congrFun (tbl0_eq m) (ix1 b)
  have e1 : (tbl m 1 : S64.Idx → BitVec 32) (ix1 b) = (m (((0 : Dev nD) : Thread nD τ).loc main_arg2) : S64.Idx → BitVec 32) (ix1 b) := congrFun (tbl1_eq m) (ix1 b)
  have e2 : (tbl m 2 : S64.Idx → BitVec 32) (ix1 b) = (m (((0 : Dev nD) : Thread nD τ).loc main_arg3) : S64.Idx → BitVec 32) (ix1 b) := congrFun (tbl2_eq m) (ix1 b)
  have e3 : (tbl m 3 : S64.Idx → BitVec 32) (ix1 b) = (m (((0 : Dev nD) : Thread nD τ).loc main_arg4) : S64.Idx → BitVec 32) (ix1 b) := congrFun (tbl3_eq m) (ix1 b)
  have e4 : (tbl m 4 : S64.Idx → BitVec 32) (ix1 b) = (m (((0 : Dev nD) : Thread nD τ).loc main_arg5) : S64.Idx → BitVec 32) (ix1 b) :=
    (tbl4_apply m (ix1 b)).trans (clampWord_of_inRange _ (hperm b))
  rw [e0, e1, e2, e3, e4]
  rfl

end Cert.KernelIdeal.Hand

end
-- ==== Proof.RefMix.lean ====
/-
  The reference computes CutMix. Its last stage is mask · x + (1 − mask) · x[perm] with mask ∈ {0, 1}: 0 inside the
  box, 1 outside. On the extended reals 0 · a = 0, 1 · a = a and a + 0 = a = 0 + a for every a, so the sum is
  x[perm] inside the box and x outside. The gather reads sample perm[b] (a negative word first moved up by 64,
  the start index then clamped into 0 … 63); for a word in range neither step changes it.
-/
import proofs.«427257_j12232066859295_2_alg».proof.Proof.Gen.ReferenceIdeal.Read
import proofs.«427257_j12232066859295_2_alg».proof.Proof.Spec

noncomputable section

namespace Cert.CutMix

open Idealize.ShloMosaic Idealize.ShloMosaic.ValueIdx

/-- A per-sample word vector read at an index is read at that index's one coordinate. -/
private theorem read1 (y : SVec.Idx → BitVec 32) (j : SVec.Idx) : y j = y (ix1 (j 0)) := congrArg y (eq_ix1 j)

/-- The f32 pattern of 1.0 denotes the extended real 1. -/
private theorem one_f32 : FloatOps.ofBits (F := Ideal) FTy.f32 0x3F800000#32 = (1 : EReal) := by
  simp [Ideal.ofBits, Ideal.ieee, -EReal.coe_mul]; norm_num

/-- The f32 pattern of 0.0 denotes the extended real 0. -/
private theorem zero_f32 : FloatOps.ofBits (F := Ideal) FTy.f32 0x00000000#32 = (0 : EReal) := by
  simp [Ideal.ofBits, Ideal.ieee]

open Cert.ReferenceIdeal Cert.ReferenceIdeal.Read in
/-- The mask at (b, h, w, 0): the four compares of the row and column numbers h and w against sample b's bounds,
    conjoined, select between 0 (inside the box) and 1 (outside). -/
private theorem mask_read (y1 y2 x1 x2 : SVec.Idx → BitVec 32) (i : S64x512x512x1.Idx) :
    val_main_v27 (F := Ideal) y1 y2 x1 x2 i
      = Scalar.select (inBox (y1 (ix1 (n := 64) (i 0))) (y2 (ix1 (n := 64) (i 0))) (x1 (ix1 (n := 64) (i 0)))
          (x2 (ix1 (n := 64) (i 0))) (i 1).val (i 2).val) (0 : EReal) 1 := by
  simp only [val_main_v27_apply, val_main_call0_v0_apply,
    val_main_call0_v1_apply, val_main_cst_apply, val_main_cst_0_apply, val_main_v26_apply, val_main_v25_apply,
    val_main_v24_apply, val_main_v23_apply, val_main_v22_apply, val_main_v21_apply, val_main_v20_apply,
    val_main_v19_apply, val_main_v18_apply, val_main_v17_apply, val_main_v16_apply, val_main_v15_apply,
    val_main_v14_apply, val_main_v13_apply, val_main_v12_apply, val_main_v11_apply, val_main_v10_apply,
    val_main_v9_apply, val_main_v8_apply, val_main_v7_apply, val_main_v6_apply, val_main_v5_apply,
    val_main_v4_apply, val_main_v3_apply, val_main_v2_apply, val_main_v1_apply, val_main_v0_apply]
  rw [read1 y1, read1 y2, read1 x1, read1 x2, zero_f32, one_f32]
  rfl

/-- For a word p with 0 ≤ p < 64 as a signed integer: p is not negative, so the select keeps p; read signed, p is
    its own unsigned value, below 64, so clamping into 0 … 63 and reducing modulo 64 both leave it alone. -/
private theorem word_in_range (p : BitVec 32) (hp : InRange p) :
    min (Scalar.select (IntOp.cmpi .slt p 0#32) (IntOp.addi p 64#32) p).toInt.toNat (64 - 1) = p.toNat % 64 := by
  obtain ⟨h0, h1⟩ := hp
  have h0' : (0 : Int) ≤ p.toInt := by simpa [BitVec.sle] using h0
  have h1' : p.toInt < 64 := by simpa [BitVec.slt] using h1
  have hs : p.slt 0#32 = false := by
    simp only [BitVec.slt, decide_eq_false_iff_not, not_lt]
    simpa using h0'
  have hc : IntOp.cmpi .slt p 0#32 = 0#1 := by
    unfold IntOp.cmpi
    simp only [hs]
    rfl
  rw [hc, select_zero]
  have ht : p.toInt = (p.toNat : Int) := by
    have hlt := p.isLt
    have := BitVec.toInt_eq_toNat_cond p
    split at this
    · exact this
    · omega
  rw [ht] at h1'
  rw [ht, Int.toNat_natCast]
  omega

open Cert.ReferenceIdeal in
/-- The gather's operand index on an offset axis (1, 2 or 3): no start, no batching coordinate, the result's own
    coordinate on that axis. -/
private theorem gather_off (idx : S64x1.Idx → BitVec 32) (j : S64x512x512x3.Idx) (a : Fin 4) (ha : a ≠ 0) :
    (gather_S64x512x512x3_S64x1_S64x512x512x3_123_0_n_n_0_1_15125123.operandIdx j idx a).val = (j a).val := by
  show gather_S64x512x512x3_S64x1_S64x512x512x3_123_0_n_n_0_1_15125123.start j idx a + gather_S64x512x512x3_S64x1_S64x512x512x3_123_0_n_n_0_1_15125123.batchCoord j a + gather_S64x512x512x3_S64x1_S64x512x512x3_123_0_n_n_0_1_15125123.offCoord j a = (j a).val
  rw [GatherDims.batchCoord_eq_zero _ _ _ List.not_mem_nil]
  unfold GatherDims.start
  rw [dif_neg (show a ∉ gather_S64x512x512x3_S64x1_S64x512x512x3_123_0_n_n_0_1_15125123.startIndexMap from fun h => ha (List.mem_singleton.mp h))]
  unfold GatherDims.offCoord
  have hk : a ∈ gather_S64x512x512x3_S64x1_S64x512x512x3_123_0_n_n_0_1_15125123.sKept :=
    (GatherDims.mem_sKept _ _).mpr ⟨fun h => ha (List.mem_singleton.mp h), List.not_mem_nil⟩
  rw [dif_pos hk, Nat.zero_add]
  match a, ha with
  | ⟨0, _⟩, ha => exact absurd rfl ha
  | ⟨1, _⟩, _ => rfl
  | ⟨2, _⟩, _ => rfl
  | ⟨3, _⟩, _ => rfl

open Cert.ReferenceIdeal Cert.ReferenceIdeal.Read in
/-- The gather's operand index on the collapsed axis 0, at result sample b: the start index word — perm[b], moved
    up by 64 when negative — read signed and clamped into 0 … 63; for a word in range, the sample it names. -/
private theorem gather_start (perm : SVec.Idx → BitVec 32) (b : Fin 64) (h w : Fin 512) (ch : Fin 3)
    (hp : InRange (perm (ix1 b))) :
    (gather_S64x512x512x3_S64x1_S64x512x512x3_123_0_n_n_0_1_15125123.operandIdx (ix4 b h w ch) (val_main_v33 (F := Ideal) perm) 0).val = (perm (ix1 b)).toNat % 64 := by
  show gather_S64x512x512x3_S64x1_S64x512x512x3_123_0_n_n_0_1_15125123.start (ix4 b h w ch) (val_main_v33 (F := Ideal) perm) 0 + gather_S64x512x512x3_S64x1_S64x512x512x3_123_0_n_n_0_1_15125123.batchCoord (ix4 b h w ch) 0
      + gather_S64x512x512x3_S64x1_S64x512x512x3_123_0_n_n_0_1_15125123.offCoord (ix4 b h w ch) 0 = (perm (ix1 b)).toNat % 64
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 4) ∈ gather_S64x512x512x3_S64x1_S64x512x512x3_123_0_n_n_0_1_15125123.startIndexMap from List.mem_singleton.mpr rfl)]
  rw [val_main_v33_apply, val_main_v32_apply, val_main_v29_apply, val_main_v31_apply, val_main_v28_apply,
    val_main_v30_apply, val_main_c_apply, val_main_c_1_apply, read1 perm]
  exact word_in_range (perm (ix1 b)) hp

open Cert.ReferenceIdeal Cert.ReferenceIdeal.Read in
/-- The gather at pixel (b, h, w, ch) reads x at the same pixel of the sample perm[b] names. -/
private theorem gather_read (x : SImg.Idx → EReal) (perm : SVec.Idx → BitVec 32) (b : Fin 64) (h w : Fin 512)
    (ch : Fin 3) (hp : InRange (perm (ix1 b))) :
    val_main_v34 (F := Ideal) x perm (ix4 b h w ch) = x (ix4 (row (perm (ix1 b))) h w ch) := by
  unfold val_main_v34 Host.gather
  refine congrArg x (funext fun a => Fin.ext ?_)
  match a with
  | ⟨0, _⟩ => exact gather_start perm b h w ch hp
  | ⟨1, _⟩ => exact gather_off _ (ix4 b h w ch) 1 (by decide)
  | ⟨2, _⟩ => exact gather_off _ (ix4 b h w ch) 2 (by decide)
  | ⟨3, _⟩ => exact gather_off _ (ix4 b h w ch) 3 (by decide)

/-- The reference's result term, at the extended reals, is CutMix of its arguments, when every word of `perm` is in range. -/
theorem ref_mix (x : SImg.Idx → EReal) (y1 y2 x1 x2 perm : SVec.Idx → BitVec 32)
    (hperm : ∀ b : Fin 64, InRange (perm (ix1 b))) :
    Cert.ReferenceIdeal.Read.val_main_v41 (F := Ideal) x y1 y2 x1 x2 perm = mix x y1 y2 x1 x2 perm := by
  funext i
  obtain ⟨b, h, w, ch, rfl⟩ : ∃ (b : Fin 64) (h w : Fin 512) (ch : Fin 3), i = ix4 b h w ch :=
    ⟨i 0, i 1, i 2, i 3, eq_ix4 i⟩
  open Cert.ReferenceIdeal.Read in
  rw [mix_apply, val_main_v41_apply, val_main_v36_apply, val_main_v40_apply, val_main_v35_apply, val_main_v39_apply,
    val_main_v38_apply, val_main_v37_apply, val_main_cst_2_apply, mask_read, gather_read x perm b h w ch (hperm b),
    one_f32]
  -- with m the box bit at (b, h, w): m·x + (1 − m)·x[perm], m ∈ {0, 1}, against the select on m
  show (Scalar.select (inBox (y1 (ix1 b)) (y2 (ix1 b)) (x1 (ix1 b)) (x2 (ix1 b)) h.val w.val) (0 : EReal) 1)
        * x (ix4 b h w ch)
      + (1 - Scalar.select (inBox (y1 (ix1 b)) (y2 (ix1 b)) (x1 (ix1 b)) (x2 (ix1 b)) h.val w.val) (0 : EReal) 1)
        * x (ix4 (row (perm (ix1 b))) h w ch)
    = Scalar.select (inBox (y1 (ix1 b)) (y2 (ix1 b)) (x1 (ix1 b)) (x2 (ix1 b)) h.val w.val)
        (x (ix4 (row (perm (ix1 b))) h w ch)) (x (ix4 b h w ch))
  by_cases hm : inBox (y1 (ix1 b)) (y2 (ix1 b)) (x1 (ix1 b)) (x2 (ix1 b)) h.val w.val = 1#1
  · -- inside the box: 0 · x + (1 − 0) · x[perm] = x[perm]
    rw [hm, select_one, select_one, zero_mul, zero_add, sub_zero, one_mul]
  · -- outside: 1 · x + (1 − 1) · x[perm] = x, the difference 1 − 1 taken among the reals
    rw [eq_zero_of_ne_one hm, select_zero, select_zero, one_mul]
    have e : (1 : EReal) - 1 = 0 := by
      rw [← EReal.coe_one, ← EReal.coe_sub, sub_self, EReal.coe_zero]
    rw [e, zero_mul, add_zero]

end Cert.CutMix

end
-- ==== Proof.PreRange.lean ====
/-
  What the precondition says of the permutation words: each is, as a signed 32-bit integer, at least 0 and below 64.
  The printed predicate conjoins "every pixel is finite" with the reduction, over the 64 samples, of
  (perm ≥ 0) ∧ (perm < 64); the whole being 1 forces every summand of the second reduction to be 1.
-/
import proofs.«427257_j12232066859295_2_alg».proof.Pre_finite_inputs
import proofs.«427257_j12232066859295_2_alg».proof.Proof.Spec
import Idealize.ShloMosaic.Lib.ReduceAll
import Idealize.ShloMosaic.Lib.StableHlo.Predicate

noncomputable section

namespace Cert.CutMix

open Idealize.ShloMosaic Idealize.ShloMosaic.ValueIdx

/-- Under the precondition every word of `perm` names a sample: 0 ≤ perm[b] < 64 as signed integers. -/
theorem perm_inRange {F : FTy → Type} [FloatOps F] [Cert.Pre_finite_inputs.Facts]
    (x : FVec F Cert.Pre_finite_inputs.S64x512x512x3 .f32) (y1 y2 x1 x2 perm : IVec Cert.Pre_finite_inputs.S64 32)
    (h : Cert.Pre_finite_inputs.fn (F := F) x y1 y2 x1 x2 perm = fun _ => 1#1) :
    ∀ b : Fin 64, InRange (perm (ix1 b)) := by
  intro b
  -- The predicate, read at its one index, is a conjunction of two reductions; keep the second.
  have h0 := congrFun h ValueIdx.ix0
  dsimp only [Cert.Pre_finite_inputs.fn] at h0
  have h9 := (IntOp.andi_eq_one.1 h0).2
  -- A rank-0 shape has a single index, so a reduction by "and" that is 1 had a 1 at every one of the 64 samples.
  haveI : Subsingleton Cert.Pre_finite_inputs.S_.Idx := ⟨fun a b => funext fun d => d.elim0⟩
  have hb := Host.reduce_andi_all _ _ _ _ _ h9 (ix1 b)
  -- At sample b the summand is (perm[b] ≥ 0) ∧ (perm[b] < 64), both compares signed.
  obtain ⟨hge, hlt⟩ := IntOp.andi_eq_one.1 hb
  -- A broadcast scalar constant reads that constant at every index; each compare is the word of a Boolean.
  have hge' : BitVec.ofBool ((0#32 : BitVec 32).sle (perm (ix1 b))) = 1#1 := hge
  have hlt' : BitVec.ofBool ((perm (ix1 b)).slt (64#32 : BitVec 32)) = 1#1 := hlt
  exact ⟨(StableHlo.Predicate.ofBool_eq_one_iff _).1 hge', (StableHlo.Predicate.ofBool_eq_one_iff _).1 hlt'⟩

end Cert.CutMix

end
-- ==== Proof.lean ====
/-
  CutMix as one Pallas kernel against its jnp reference, over the extended reals.

  Both programs blend each image of a batch of 64 with another image of the batch inside a per-sample box: inside the
  box the pixel of sample perm[b], outside it the sample's own pixel. The kernel builds the box test from iotas over a
  row block and selects between two blocks of the image batch, the second fetched at the sample a prefetched table
  names; the reference forms the mask as a float in {0, 1} and computes mask · x + (1 − mask) · x[perm]. On the
  extended reals the second form is the first (0 · a = 0, 1 · a = a, a + 0 = a for every a, infinite or not).

  The two differ in how they treat a word of perm outside 0 … 63: the kernel clamps it into that range, the
  reference first moves a negative word up by 64 and only then clamps. The precondition therefore asks, beside
  finite pixels, that every word of perm lie in 0 … 63, where both read the word itself.

  Every program runs to its end whatever perm holds (the kernel's clamp keeps each fetched block inside the array);
  nothing writes an argument. The idealization rewrote nothing, so it preserves the kernel trivially.
-/
import proofs.«427257_j12232066859295_2_alg».proof.Defs
import proofs.«427257_j12232066859295_2_alg».proof.Proof.Gen.Kernel
import proofs.«427257_j12232066859295_2_alg».proof.Proof.Gen.KernelIdeal
import proofs.«427257_j12232066859295_2_alg».proof.Proof.Gen.ReferenceIdeal
import proofs.«427257_j12232066859295_2_alg».proof.Proof.Gen.ReferenceIdeal.Run
import proofs.«427257_j12232066859295_2_alg».proof.Proof.Gen.ReferenceIdeal.Read
import proofs.«427257_j12232066859295_2_alg».proof.Proof.Gen.Pre_finite_inputs
import proofs.«427257_j12232066859295_2_alg».proof.Proof.LaunchK
import proofs.«427257_j12232066859295_2_alg».proof.Proof.MixKI
import proofs.«427257_j12232066859295_2_alg».proof.Proof.RefMix
import proofs.«427257_j12232066859295_2_alg».proof.Proof.PreRange
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel runs to its end and leaves its six arguments as launched: the image batch and perm bypass
    the region, the four box-bound tables pass through it read-only. -/
theorem frame_k : Cert.frame_Kernel := fun m ρ _ =>
  (θ_run Cert.Kernel.defs _ _).mono (fun r h c => by
      obtain rfl : c = 0 := Subsingleton.elim _ _
      obtain ⟨-, ht, h0, h5, -⟩ := h 0
      exact ⟨h0.trans (Cert.Kernel.Hand.V_main_arg0 m 0), (ht 0).trans (Cert.Kernel.Hand.V_main_arg1 m 0),
        (ht 1).trans (Cert.Kernel.Hand.V_main_arg2 m 0), (ht 2).trans (Cert.Kernel.Hand.V_main_arg3 m 0),
        (ht 3).trans (Cert.Kernel.Hand.V_main_arg4 m 0), h5.trans (Cert.Kernel.Hand.V_main_arg5 m 0)⟩)
    (Cert.Kernel.Hand.run_main (F := Bits) m ρ)

/-- So does the idealized kernel. -/
theorem frame_ki : Cert.frame_KernelIdeal := fun m ρ _ =>
  (θ_run Cert.KernelIdeal.defs _ _).mono (fun r h c => by
      obtain rfl : c = 0 := Subsingleton.elim _ _
      obtain ⟨-, ht, h0, h5, -⟩ := h 0
      exact ⟨h0.trans (Cert.KernelIdeal.Hand.V_main_arg0 m 0), (ht 0).trans (Cert.KernelIdeal.Hand.V_main_arg1 m 0),
        (ht 1).trans (Cert.KernelIdeal.Hand.V_main_arg2 m 0), (ht 2).trans (Cert.KernelIdeal.Hand.V_main_arg3 m 0),
        (ht 3).trans (Cert.KernelIdeal.Hand.V_main_arg4 m 0), h5.trans (Cert.KernelIdeal.Hand.V_main_arg5 m 0)⟩)
    (Cert.KernelIdeal.Hand.run_main (F := Ideal) m ρ)

/-- The reference is a line of host operations: it runs to its end, its arguments untouched. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments, with every word of perm in 0 … 63, the idealized kernel and the
    idealized reference both end holding CutMix of those arguments. -/
theorem algebraic : Cert.algebraic_KernelIdeal_ReferenceIdeal := by
  intro m ρ m' ρ' hpre hagree
  have hperm := Cert.CutMix.perm_inRange (F := Ideal) _ _ _ _ _ _ (hpre 0)
  refine ⟨fun c => Cert.KernelIdeal.Hand.resBuf m c, ?_, ?_⟩
  · exact (θ_run Cert.KernelIdeal.defs _ _).mono (fun r h c => by
        obtain rfl : c = 0 := Subsingleton.elim _ _
        obtain ⟨-, ht, h0, h5, h3⟩ := h 0
        exact ⟨h3, h0.trans (Cert.KernelIdeal.Hand.V_main_arg0 m 0), (ht 0).trans (Cert.KernelIdeal.Hand.V_main_arg1 m 0),
          (ht 1).trans (Cert.KernelIdeal.Hand.V_main_arg2 m 0), (ht 2).trans (Cert.KernelIdeal.Hand.V_main_arg3 m 0),
          (ht 3).trans (Cert.KernelIdeal.Hand.V_main_arg4 m 0), h5.trans (Cert.KernelIdeal.Hand.V_main_arg5 m 0)⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    obtain rfl : c = 0 := Subsingleton.elim _ _
    rw [Cert.ReferenceIdeal.Read.val_main_v41_eq, (hagree 0).1, (hagree 0).2.1, (hagree 0).2.2.1, (hagree 0).2.2.2.1,
      (hagree 0).2.2.2.2.1, (hagree 0).2.2.2.2.2]
    exact (Cert.CutMix.ref_mix _ _ _ _ _ _ hperm).trans (Cert.KernelIdeal.Hand.kernel_mix m hperm).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
